-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4096 : Shape := ⟨2, ![16, 4096]⟩
abbrev S512x11008 : Shape := ⟨2, ![512, 11008]⟩
abbrev S32x11008 : Shape := ⟨2, ![32, 11008]⟩
abbrev S11008 : Shape := ⟨1, ![11008]⟩
abbrev S_ : Shape := ⟨0, ![]⟩

class Facts : Prop where
  bcast_S_S16x4096 : S_.BroadcastsInDim S16x4096 (![] : Fin 0 → Fin S16x4096.rank)
  reducesTo_S16x4096_S_d0_1 : S16x4096.ReducesTo [0, 1] S_
  h_S_ : 0 < S_.numel
  bcast_S_S32x11008 : S_.BroadcastsInDim S32x11008 (![] : Fin 0 → Fin S32x11008.rank)
  reducesTo_S32x11008_S_d0_1 : S32x11008.ReducesTo [0, 1] S_
  bcast_S_S11008 : S_.BroadcastsInDim S11008 (![] : Fin 0 → Fin S11008.rank)
  reducesTo_S11008_S_d0 : S11008.ReducesTo [0] S_

variable [Facts]

def fn_part1 {F : FTy → Type} [FloatOps F] (main_v13 : IVec S_ 1) (main_v16 : IVec S11008 1) : IVec S_ 1 :=
  let main_c_5 : IVec S_ 1 := constantI S_ 1 1#1
  let main_v17 : IVec S_ 1 := (fun x v => Host.reduce IntOp.andi x v reducesTo_S11008_S_d0 h_S_) main_v16 main_c_5
  let main_v18 : IVec S_ 1 := andi main_v13 main_v17
  main_v18

def fn {F : FTy → Type} [FloatOps F] (main_arg0 : FVec F S16x4096 .f32) (main_arg1 : IVec S512x11008 32) (main_arg2 : FVec F S32x11008 .f32) (main_arg3 : FVec F S32x11008 .f32) (main_arg4 : FVec F S11008 .f32) : IVec S_ 1 :=
  let main_v0 : FVec F S16x4096 .f32 := Host.absf main_arg0
  let main_cst : FVec F S_ .f32 := constant S_ .f32 0x7F800000#32
  let main_v1 : FVec F S16x4096 .f32 := broadcastInDim S16x4096 ![] bcast_S_S16x4096 main_cst
  let main_v2 : IVec S16x4096 1 := cmpf .olt main_v0 main_v1
  let main_c : IVec S_ 1 := constantI S_ 1 1#1
  let main_v3 : IVec S_ 1 := (fun x v => Host.reduce IntOp.andi x v reducesTo_S16x4096_S_d0_1 h_S_) main_v2 main_c
  let main_v4 : FVec F S32x11008 .f32 := Host.absf main_arg2
  let main_cst_0 : FVec F S_ .f32 := constant S_ .f32 0x7F800000#32
  let main_v5 : FVec F S32x11008 .f32 := broadcastInDim S32x11008 ![] bcast_S_S32x11008 main_cst_0
  let main_v6 : IVec S32x11008 1 := cmpf .olt main_v4 main_v5
  let main_c_1 : IVec S_ 1 := constantI S_ 1 1#1
  let main_v7 : IVec S_ 1 := (fun x v => Host.reduce IntOp.andi x v reducesTo_S32x11008_S_d0_1 h_S_) main_v6 main_c_1
  let main_v8 : IVec S_ 1 := andi main_v3 main_v7
  let main_v9 : FVec F S32x11008 .f32 := Host.absf main_arg3
  let main_cst_2 : FVec F S_ .f32 := constant S_ .f32 0x7F800000#32
  let main_v10 : FVec F S32x11008 .f32 := broadcastInDim S32x11008 ![] bcast_S_S32x11008 main_cst_2
  let main_v11 : IVec S32x11008 1 := cmpf .olt main_v9 main_v10
  let main_c_3 : IVec S_ 1 := constantI S_ 1 1#1
  let main_v12 : IVec S_ 1 := (fun x v => Host.reduce IntOp.andi x v reducesTo_S32x11008_S_d0_1 h_S_) main_v11 main_c_3
  let main_v13 : IVec S_ 1 := andi main_v8 main_v12
  let main_v14 : FVec F S11008 .f32 := Host.absf main_arg4
  let main_cst_4 : FVec F S_ .f32 := constant S_ .f32 0x7F800000#32
  let main_v15 : FVec F S11008 .f32 := broadcastInDim S11008 ![] bcast_S_S11008 main_cst_4
  let main_v16 : IVec S11008 1 := cmpf .olt main_v14 main_v15
  fn_part1 (F := F) main_v13 main_v16
-- ==== Kernel.lean ====
abbrev S16x4096 : Shape := ⟨2, ![16, 4096]⟩
abbrev S512x11008 : Shape := ⟨2, ![512, 11008]⟩
abbrev S32x11008 : Shape := ⟨2, ![32, 11008]⟩
abbrev S11008 : Shape := ⟨1, ![11008]⟩
abbrev S_ : Shape := ⟨0, ![]⟩
abbrev S512x11264 : Shape := ⟨2, ![512, 11264]⟩
abbrev S32x11264 : Shape := ⟨2, ![32, 11264]⟩
abbrev S11264 : Shape := ⟨1, ![11264]⟩
abbrev S1x11264 : Shape := ⟨2, ![1, 11264]⟩
abbrev S16x11264 : Shape := ⟨2, ![16, 11264]⟩
abbrev S512x512 : Shape := ⟨2, ![512, 512]⟩
abbrev S32x512 : Shape := ⟨2, ![32, 512]⟩
abbrev S1x512 : Shape := ⟨2, ![1, 512]⟩
abbrev S16x512 : Shape := ⟨2, ![16, 512]⟩
abbrev S1x8x1 : Shape := ⟨3, ![1, 8, 1]⟩
abbrev S16x1x512 : Shape := ⟨3, ![16, 1, 512]⟩
abbrev S16x8x512 : Shape := ⟨3, ![16, 8, 512]⟩
abbrev S128x512 : Shape := ⟨2, ![128, 512]⟩
abbrev S16x128 : Shape := ⟨2, ![16, 128]⟩
abbrev S16 : Shape := ⟨1, ![16]⟩
abbrev S16x1 : Shape := ⟨2, ![16, 1]⟩
abbrev S16x11008 : Shape := ⟨2, ![16, 11008]⟩

abbrev nBuf : Space → Nat
  | .hbm => 20
  | .vmem => 11
  | .smem => 0
  | _ => 0

abbrev bufTy : (tb : Table) → Fin (tcTables nBuf tb) → BufTy
  | .hbm, ⟨0, _⟩ => ⟨S16x4096, .f32⟩
  | .hbm, ⟨1, _⟩ => ⟨S512x11008, .i32⟩
  | .hbm, ⟨2, _⟩ => ⟨S32x11008, .f32⟩
  | .hbm, ⟨3, _⟩ => ⟨S32x11008, .f32⟩
  | .hbm, ⟨4, _⟩ => ⟨S11008, .f32⟩
  | .hbm, ⟨5, _⟩ => ⟨S_, .i32⟩
  | .hbm, ⟨6, _⟩ => ⟨S_, .i32⟩
  | .hbm, ⟨7, _⟩ => ⟨S512x11264, .i32⟩
  | .hbm, ⟨8, _⟩ => ⟨S_, .i32⟩
  | .hbm, ⟨9, _⟩ => ⟨S_, .f32⟩
  | .hbm, ⟨10, _⟩ => ⟨S32x11264, .f32⟩
  | .hbm, ⟨11, _⟩ => ⟨S_, .i32⟩
  | .hbm, ⟨12, _⟩ => ⟨S_, .f32⟩
  | .hbm, ⟨13, _⟩ => ⟨S32x11264, .f32⟩
  | .hbm, ⟨14, _⟩ => ⟨S_, .i32⟩
  | .hbm, ⟨15, _⟩ => ⟨S_, .f32⟩
  | .hbm, ⟨16, _⟩ => ⟨S11264, .f32⟩
  | .hbm, ⟨17, _⟩ => ⟨S1x11264, .f32⟩
  | .hbm, ⟨18, _⟩ => ⟨S16x11264, .f32⟩
  | .hbm, ⟨19, _⟩ => ⟨S16x11008, .f32⟩
  | .local _ .vmem, ⟨0, _⟩ => ⟨S16x4096, .f32⟩
  | .local _ .vmem, ⟨1, _⟩ => ⟨S512x512, .i32⟩
  | .local _ .vmem, ⟨2, _⟩ => ⟨S512x512, .i32⟩
  | .local _ .vmem, ⟨3, _⟩ => ⟨S32x512, .f32⟩
  | .local _ .vmem, ⟨4, _⟩ => ⟨S32x512, .f32⟩
  | .local _ .vmem, ⟨5, _⟩ => ⟨S32x512, .f32⟩
  | .local _ .vmem, ⟨6, _⟩ => ⟨S32x512, .f32⟩
  | .local _ .vmem, ⟨7, _⟩ => ⟨S1x512, .f32⟩
  | .local _ .vmem, ⟨8, _⟩ => ⟨S1x512, .f32⟩
  | .local _ .vmem, ⟨9, _⟩ => ⟨S16x512, .f32⟩
  | .local _ .vmem, ⟨10, _⟩ => ⟨S16x512, .f32⟩
  | _, _ => ⟨S16x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_c_0 : Ref sig .tc := ⟨.hbm, 8, rfl⟩
abbrev main_call1_v0 : Ref sig .tc := ⟨.hbm, 9, rfl⟩
abbrev main_v1 : Ref sig .tc := ⟨.hbm, 10, rfl⟩
abbrev main_c_1 : Ref sig .tc := ⟨.hbm, 11, rfl⟩
abbrev main_call2_v0 : Ref sig .tc := ⟨.hbm, 12, rfl⟩
abbrev main_v2 : Ref sig .tc := ⟨.hbm, 13, rfl⟩
abbrev main_c_2 : Ref sig .tc := ⟨.hbm, 14, rfl⟩
abbrev main_call3_v0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![22], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S16x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  pads_S512x11008_S512x11264_000_02560 : S512x11008.Pads (![0, 0] : Fin 2 → Nat) ![0, 256] ![0, 0] S512x11264
  h_S_ : 0 < S_.numel
  pads_S32x11008_S32x11264_000_02560 : S32x11008.Pads (![0, 0] : Fin 2 → Nat) ![0, 256] ![0, 0] S32x11264
  pads_S11008_S11264_02560 : S11008.Pads (![0] : Fin 1 → Nat) ![256] ![0] S11264
  shapeCasts_S11264_S1x11264 : S11264.ShapeCasts S1x11264
  iota_S1x8x1_d1_w32 : S1x8x1.Iotas .tc 32 [1]
  inb_S512x512_S16x512_0_0 : ∀ a, (![0, 0] : Fin 2 → Nat) a + S16x512.size a ≤ S512x512.size a
  h_S16x512 : 0 < S16x512.numel
  shapeCasts_S16x512_S16x512 : S16x512.ShapeCasts S16x512
  shapeCasts_S16x512_S16x1x512 : S16x512.ShapeCasts S16x1x512
  broadcasts_S16x1x512_S16x8x512 : S16x1x512.Broadcasts S16x8x512
  broadcasts_S1x8x1_S16x8x512 : S1x8x1.Broadcasts S16x8x512
  shapeCasts_S16x8x512_S128x512 : S16x8x512.ShapeCasts S128x512
  inb_S16x4096_S16x128_0_0 : ∀ a, (![0, 0] : Fin 2 → Nat) a + S16x128.size a ≤ S16x4096.size a
  h_S16x128 : 0 < S16x128.numel
  bitsLt_bf16_f32 : FTy.bits .bf16 < FTy.bits .f32
  reduces_S16x128_S16 : S16x128.Reduces [1] S16
  shapeCasts_S16_S16x1 : S16.ShapeCasts S16x1
  inb_S32x512_S1x512_0_0 : ∀ a, (![0, 0] : Fin 2 → Nat) a + S1x512.size a ≤ S32x512.size a
  h_S1x512 : 0 < S1x512.numel
  shapeCasts_S1x512_S1x512 : S1x512.ShapeCasts S1x512
  broadcasts_S1x512_S16x512 : S1x512.Broadcasts S16x512
  broadcasts_S16x1_S16x512 : S16x1.Broadcasts S16x512
  inb_S512x512_S16x512_16_0 : ∀ a, (![16, 0] : Fin 2 → Nat) a + S16x512.size a ≤ S512x512.size a
  inb_S16x4096_S16x128_0_128 : ∀ a, (![0, 128] : Fin 2 → Nat) a + S16x128.size a ≤ S16x4096.size a
  inb_S32x512_S1x512_1_0 : ∀ a, (![1, 0] : Fin 2 → Nat) a + S1x512.size a ≤ S32x512.size a
  inb_S512x512_S16x512_32_0 : ∀ a, (![32, 0] : Fin 2 → Nat) a + S16x512.size a ≤ S512x512.size a
  inb_S16x4096_S16x128_0_256 : ∀ a, (![0, 256] : Fin 2 → Nat) a + S16x128.size a ≤ S16x4096.size a
  inb_S32x512_S1x512_2_0 : ∀ a, (![2, 0] : Fin 2 → Nat) a + S1x512.size a ≤ S32x512.size a
  inb_S512x512_S16x512_48_0 : ∀ a, (![48, 0] : Fin 2 → Nat) a + S16x512.size a ≤ S512x512.size a
  inb_S16x4096_S16x128_0_384 : ∀ a, (![0, 384] : Fin 2 → Nat) a + S16x128.size a ≤ S16x4096.size a
  inb_S32x512_S1x512_3_0 : ∀ a, (![3, 0] : Fin 2 → Nat) a + S1x512.size a ≤ S32x512.size a
  inb_S512x512_S16x512_64_0 : ∀ a, (![64, 0] : Fin 2 → Nat) a + S16x512.size a ≤ S512x512.size a
  inb_S16x4096_S16x128_0_512 : ∀ a, (![0, 512] : Fin 2 → Nat) a + S16x128.size a ≤ S16x4096.size a
  inb_S32x512_S1x512_4_0 : ∀ a, (![4, 0] : Fin 2 → Nat) a + S1x512.size a ≤ S32x512.size a
  inb_S512x512_S16x512_80_0 : ∀ a, (![80, 0] : Fin 2 → Nat) a + S16x512.size a ≤ S512x512.size a
  inb_S16x4096_S16x128_0_640 : ∀ a, (![0, 640] : Fin 2 → Nat) a + S16x128.size a ≤ S16x4096.size a
  inb_S32x512_S1x512_5_0 : ∀ a, (![5, 0] : Fin 2 → Nat) a + S1x512.size a ≤ S32x512.size a
  inb_S512x512_S16x512_96_0 : ∀ a, (![96, 0] : Fin 2 → Nat) a + S16x512.size a ≤ S512x512.size a
  inb_S16x4096_S16x128_0_768 : ∀ a, (![0, 768] : Fin 2 → Nat) a + S16x128.size a ≤ S16x4096.size a
  inb_S32x512_S1x512_6_0 : ∀ a, (![6, 0] : Fin 2 → Nat) a + S1x512.size a ≤ S32x512.size a
  inb_S512x512_S16x512_112_0 : ∀ a, (![112, 0] : Fin 2 → Nat) a + S16x512.size a ≤ S512x512.size a
  inb_S16x4096_S16x128_0_896 : ∀ a, (![0, 896] : Fin 2 → Nat) a + S16x128.size a ≤ S16x4096.size a
  inb_S32x512_S1x512_7_0 : ∀ a, (![7, 0] : Fin 2 → Nat) a + S1x512.size a ≤ S32x512.size a
  inb_S512x512_S16x512_128_0 : ∀ a, (![128, 0] : Fin 2 → Nat) a + S16x512.size a ≤ S512x512.size a
  inb_S16x4096_S16x128_0_1024 : ∀ a, (![0, 1024] : Fin 2 → Nat) a + S16x128.size a ≤ S16x4096.size a
  inb_S32x512_S1x512_8_0 : ∀ a, (![8, 0] : Fin 2 → Nat) a + S1x512.size a ≤ S32x512.size a
  inb_S512x512_S16x512_144_0 : ∀ a, (![144, 0] : Fin 2 → Nat) a + S16x512.size a ≤ S512x512.size a
  inb_S16x4096_S16x128_0_1152 : ∀ a, (![0, 1152] : Fin 2 → Nat) a + S16x128.size a ≤ S16x4096.size a
  inb_S32x512_S1x512_9_0 : ∀ a, (![9, 0] : Fin 2 → Nat) a + S1x512.size a ≤ S32x512.size a
  inb_S512x512_S16x512_160_0 : ∀ a, (![160, 0] : Fin 2 → Nat) a + S16x512.size a ≤ S512x512.size a
  inb_S16x4096_S16x128_0_1280 : ∀ a, (![0, 1280] : Fin 2 → Nat) a + S16x128.size a ≤ S16x4096.size a
  inb_S32x512_S1x512_10_0 : ∀ a, (![10, 0] : Fin 2 → Nat) a + S1x512.size a ≤ S32x512.size a
  inb_S512x512_S16x512_176_0 : ∀ a, (![176, 0] : Fin 2 → Nat) a + S16x512.size a ≤ S512x512.size a
  inb_S16x4096_S16x128_0_1408 : ∀ a, (![0, 1408] : Fin 2 → Nat) a + S16x128.size a ≤ S16x4096.size a
  inb_S32x512_S1x512_11_0 : ∀ a, (![11, 0] : Fin 2 → Nat) a + S1x512.size a ≤ S32x512.size a
  inb_S512x512_S16x512_192_0 : ∀ a, (![192, 0] : Fin 2 → Nat) a + S16x512.size a ≤ S512x512.size a
  inb_S16x4096_S16x128_0_1536 : ∀ a, (![0, 1536] : Fin 2 → Nat) a + S16x128.size a ≤ S16x4096.size a
  inb_S32x512_S1x512_12_0 : ∀ a, (![12, 0] : Fin 2 → Nat) a + S1x512.size a ≤ S32x512.size a
  inb_S512x512_S16x512_208_0 : ∀ a, (![208, 0] : Fin 2 → Nat) a + S16x512.size a ≤ S512x512.size a
  inb_S16x4096_S16x128_0_1664 : ∀ a, (![0, 1664] : Fin 2 → Nat) a + S16x128.size a ≤ S16x4096.size a
  inb_S32x512_S1x512_13_0 : ∀ a, (![13, 0] : Fin 2 → Nat) a + S1x512.size a ≤ S32x512.size a
  inb_S512x512_S16x512_224_0 : ∀ a, (![224, 0] : Fin 2 → Nat) a + S16x512.size a ≤ S512x512.size a
  inb_S16x4096_S16x128_0_1792 : ∀ a, (![0, 1792] : Fin 2 → Nat) a + S16x128.size a ≤ S16x4096.size a
  inb_S32x512_S1x512_14_0 : ∀ a, (![14, 0] : Fin 2 → Nat) a + S1x512.size a ≤ S32x512.size a
  inb_S512x512_S16x512_240_0 : ∀ a, (![240, 0] : Fin 2 → Nat) a + S16x512.size a ≤ S512x512.size a
  inb_S16x4096_S16x128_0_1920 : ∀ a, (![0, 1920] : Fin 2 → Nat) a + S16x128.size a ≤ S16x4096.size a
  inb_S32x512_S1x512_15_0 : ∀ a, (![15, 0] : Fin 2 → Nat) a + S1x512.size a ≤ S32x512.size a
  inb_S512x512_S16x512_256_0 : ∀ a, (![256, 0] : Fin 2 → Nat) a + S16x512.size a ≤ S512x512.size a
  inb_S16x4096_S16x128_0_2048 : ∀ a, (![0, 2048] : Fin 2 → Nat) a + S16x128.size a ≤ S16x4096.size a
  inb_S32x512_S1x512_16_0 : ∀ a, (![16, 0] : Fin 2 → Nat) a + S1x512.size a ≤ S32x512.size a
  inb_S512x512_S16x512_272_0 : ∀ a, (![272, 0] : Fin 2 → Nat) a + S16x512.size a ≤ S512x512.size a
  inb_S16x4096_S16x128_0_2176 : ∀ a, (![0, 2176] : Fin 2 → Nat) a + S16x128.size a ≤ S16x4096.size a
  inb_S32x512_S1x512_17_0 : ∀ a, (![17, 0] : Fin 2 → Nat) a + S1x512.size a ≤ S32x512.size a
  inb_S512x512_S16x512_288_0 : ∀ a, (![288, 0] : Fin 2 → Nat) a + S16x512.size a ≤ S512x512.size a
  inb_S16x4096_S16x128_0_2304 : ∀ a, (![0, 2304] : Fin 2 → Nat) a + S16x128.size a ≤ S16x4096.size a
  inb_S32x512_S1x512_18_0 : ∀ a, (![18, 0] : Fin 2 → Nat) a + S1x512.size a ≤ S32x512.size a
  inb_S512x512_S16x512_304_0 : ∀ a, (![304, 0] : Fin 2 → Nat) a + S16x512.size a ≤ S512x512.size a
  inb_S16x4096_S16x128_0_2432 : ∀ a, (![0, 2432] : Fin 2 → Nat) a + S16x128.size a ≤ S16x4096.size a
  inb_S32x512_S1x512_19_0 : ∀ a, (![19, 0] : Fin 2 → Nat) a + S1x512.size a ≤ S32x512.size a
  inb_S512x512_S16x512_320_0 : ∀ a, (![320, 0] : Fin 2 → Nat) a + S16x512.size a ≤ S512x512.size a
  inb_S16x4096_S16x128_0_2560 : ∀ a, (![0, 2560] : Fin 2 → Nat) a + S16x128.size a ≤ S16x4096.size a
  inb_S32x512_S1x512_20_0 : ∀ a, (![20, 0] : Fin 2 → Nat) a + S1x512.size a ≤ S32x512.size a
  inb_S512x512_S16x512_336_0 : ∀ a, (![336, 0] : Fin 2 → Nat) a + S16x512.size a ≤ S512x512.size a
  inb_S16x4096_S16x128_0_2688 : ∀ a, (![0, 2688] : Fin 2 → Nat) a + S16x128.size a ≤ S16x4096.size a
  inb_S32x512_S1x512_21_0 : ∀ a, (![21, 0] : Fin 2 → Nat) a + S1x512.size a ≤ S32x512.size a
  inb_S512x512_S16x512_352_0 : ∀ a, (![352, 0] : Fin 2 → Nat) a + S16x512.size a ≤ S512x512.size a
  inb_S16x4096_S16x128_0_2816 : ∀ a, (![0, 2816] : Fin 2 → Nat) a + S16x128.size a ≤ S16x4096.size a
  inb_S32x512_S1x512_22_0 : ∀ a, (![22, 0] : Fin 2 → Nat) a + S1x512.size a ≤ S32x512.size a
  inb_S512x512_S16x512_368_0 : ∀ a, (![368, 0] : Fin 2 → Nat) a + S16x512.size a ≤ S512x512.size a
  inb_S16x4096_S16x128_0_2944 : ∀ a, (![0, 2944] : Fin 2 → Nat) a + S16x128.size a ≤ S16x4096.size a
  inb_S32x512_S1x512_23_0 : ∀ a, (![23, 0] : Fin 2 → Nat) a + S1x512.size a ≤ S32x512.size a
  inb_S512x512_S16x512_384_0 : ∀ a, (![384, 0] : Fin 2 → Nat) a + S16x512.size a ≤ S512x512.size a
  inb_S16x4096_S16x128_0_3072 : ∀ a, (![0, 3072] : Fin 2 → Nat) a + S16x128.size a ≤ S16x4096.size a
  inb_S32x512_S1x512_24_0 : ∀ a, (![24, 0] : Fin 2 → Nat) a + S1x512.size a ≤ S32x512.size a
  inb_S512x512_S16x512_400_0 : ∀ a, (![400, 0] : Fin 2 → Nat) a + S16x512.size a ≤ S512x512.size a
  inb_S16x4096_S16x128_0_3200 : ∀ a, (![0, 3200] : Fin 2 → Nat) a + S16x128.size a ≤ S16x4096.size a
  inb_S32x512_S1x512_25_0 : ∀ a, (![25, 0] : Fin 2 → Nat) a + S1x512.size a ≤ S32x512.size a
  inb_S512x512_S16x512_416_0 : ∀ a, (![416, 0] : Fin 2 → Nat) a + S16x512.size a ≤ S512x512.size a
  inb_S16x4096_S16x128_0_3328 : ∀ a, (![0, 3328] : Fin 2 → Nat) a + S16x128.size a ≤ S16x4096.size a
  inb_S32x512_S1x512_26_0 : ∀ a, (![26, 0] : Fin 2 → Nat) a + S1x512.size a ≤ S32x512.size a
  inb_S512x512_S16x512_432_0 : ∀ a, (![432, 0] : Fin 2 → Nat) a + S16x512.size a ≤ S512x512.size a
  inb_S16x4096_S16x128_0_3456 : ∀ a, (![0, 3456] : Fin 2 → Nat) a + S16x128.size a ≤ S16x4096.size a
  inb_S32x512_S1x512_27_0 : ∀ a, (![27, 0] : Fin 2 → Nat) a + S1x512.size a ≤ S32x512.size a
  inb_S512x512_S16x512_448_0 : ∀ a, (![448, 0] : Fin 2 → Nat) a + S16x512.size a ≤ S512x512.size a
  inb_S16x4096_S16x128_0_3584 : ∀ a, (![0, 3584] : Fin 2 → Nat) a + S16x128.size a ≤ S16x4096.size a
  inb_S32x512_S1x512_28_0 : ∀ a, (![28, 0] : Fin 2 → Nat) a + S1x512.size a ≤ S32x512.size a
  inb_S512x512_S16x512_464_0 : ∀ a, (![464, 0] : Fin 2 → Nat) a + S16x512.size a ≤ S512x512.size a
  inb_S16x4096_S16x128_0_3712 : ∀ a, (![0, 3712] : Fin 2 → Nat) a + S16x128.size a ≤ S16x4096.size a
  inb_S32x512_S1x512_29_0 : ∀ a, (![29, 0] : Fin 2 → Nat) a + S1x512.size a ≤ S32x512.size a
  inb_S512x512_S16x512_480_0 : ∀ a, (![480, 0] : Fin 2 → Nat) a + S16x512.size a ≤ S512x512.size a
  inb_S16x4096_S16x128_0_3840 : ∀ a, (![0, 3840] : Fin 2 → Nat) a + S16x128.size a ≤ S16x4096.size a
  inb_S32x512_S1x512_30_0 : ∀ a, (![30, 0] : Fin 2 → Nat) a + S1x512.size a ≤ S32x512.size a
  inb_S512x512_S16x512_496_0 : ∀ a, (![496, 0] : Fin 2 → Nat) a + S16x512.size a ≤ S512x512.size a
  inb_S16x4096_S16x128_0_3968 : ∀ a, (![0, 3968] : Fin 2 → Nat) a + S16x128.size a ≤ S16x4096.size a
  inb_S32x512_S1x512_31_0 : ∀ a, (![31, 0] : Fin 2 → Nat) a + S1x512.size a ≤ S32x512.size a
  inb_S1x512_S1x512_0_0 : ∀ a, (![0, 0] : Fin 2 → Nat) a + S1x512.size a ≤ S1x512.size a
  inb_S16x512_S16x512_0_0 : ∀ a, (![0, 0] : Fin 2 → Nat) a + S16x512.size a ≤ S16x512.size a
  slices_S16x11264_S16x11008_0_0 : S16x11264.Slices ![0, 0] S16x11008
  dot_S16x128_S128x512_S16x512_1_0_0_1_n_n_wf : DotDims.WF S16x128 S128x512 S16x512 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S16x4096.size a ≤ S16x4096.size a
  hwx0_0 : ∀ i : grid0.Coords, EltTy.bits .f32 = 32 ∨ (Rect.block (s := S16x4096) S16x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x11264.size a
  hwx0_1 : ∀ i : grid0.Coords, EltTy.bits .i32 = 32 ∨ (Rect.block (s := S512x11264) S512x512.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x512.size a ≤ S32x11264.size a
  hwx0_2 : ∀ i : grid0.Coords, EltTy.bits .f32 = 32 ∨ (Rect.block (s := S32x11264) S32x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S32x512.size a ≤ S32x11264.size a
  hwx0_3 : ∀ i : grid0.Coords, EltTy.bits .f32 = 32 ∨ (Rect.block (s := S32x11264) S32x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x11264.size a
  hwx0_4 : ∀ i : grid0.Coords, EltTy.bits .f32 = 32 ∨ (Rect.block (s := S1x11264) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S16x512.size a ≤ S16x11264.size a
  hwx0_5 : ∀ i : grid0.Coords, EltTy.bits .f32 = 32 ∨ (Rect.block (s := S16x11264) S16x512.size (cc0_transform_5 i) (hinb0_5 i)).WholeWords (EltTy.packing .f32)

variable [Facts₀]

def dot_S16x128_S128x512_S16x512_1_0_0_1_n_n : DotDims S16x128 S128x512 S16x512 where
  lhsContracting := [1]
  rhsContracting := [0]
  lhsNonContracting := [0]
  rhsNonContracting := [1]
  lhsBatch := []
  rhsBatch := []
  wf := dot_S16x128_S128x512_S16x512_1_0_0_1_n_n_wf

abbrev win0_0 : Pipeline.Window sig grid0 :=
  Pipeline.Window.ofSpec (Memref.whole main_arg0) S16x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S32x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S32x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5) S16x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16x4096 : Shape := ⟨2, ![16, 4096]⟩
abbrev S512x11008 : Shape := ⟨2, ![512, 11008]⟩
abbrev S32x11008 : Shape := ⟨2, ![32, 11008]⟩
abbrev S11008 : Shape := ⟨1, ![11008]⟩
abbrev S8 : Shape := ⟨1, ![8]⟩
abbrev S_ : Shape := ⟨0, ![]⟩
abbrev S512x1x11008 : Shape := ⟨3, ![512, 1, 11008]⟩
abbrev S1x8x1 : Shape := ⟨3, ![1, 8, 1]⟩
abbrev S512x8x11008 : Shape := ⟨3, ![512, 8, 11008]⟩
abbrev S4096x11008 : Shape := ⟨2, ![4096, 11008]⟩
abbrev S32x128x11008 : Shape := ⟨3, ![32, 128, 11008]⟩
abbrev S16x11008 : Shape := ⟨2, ![16, 11008]⟩
abbrev S1x11008 : Shape := ⟨2, ![1, 11008]⟩

abbrev nBuf : Space → Nat
  | .hbm => 29
  | .vmem => 0
  | .smem => 0
  | _ => 0

abbrev bufTy : (tb : Table) → Fin (tcTables nBuf tb) → BufTy
  | .hbm, ⟨0, _⟩ => ⟨S16x4096, .f32⟩
  | .hbm, ⟨1, _⟩ => ⟨S512x11008, .i32⟩
  | .hbm, ⟨2, _⟩ => ⟨S32x11008, .f32⟩
  | .hbm, ⟨3, _⟩ => ⟨S32x11008, .f32⟩
  | .hbm, ⟨4, _⟩ => ⟨S11008, .f32⟩
  | .hbm, ⟨5, _⟩ => ⟨S8, .i32⟩
  | .hbm, ⟨6, _⟩ => ⟨S_, .i32⟩
  | .hbm, ⟨7, _⟩ => ⟨S8, .i32⟩
  | .hbm, ⟨8, _⟩ => ⟨S8, .i32⟩
  | .hbm, ⟨9, _⟩ => ⟨S512x1x11008, .i32⟩
  | .hbm, ⟨10, _⟩ => ⟨S1x8x1, .i32⟩
  | .hbm, ⟨11, _⟩ => ⟨S512x8x11008, .i32⟩
  | .hbm, ⟨12, _⟩ => ⟨S512x8x11008, .i32⟩
  | .hbm, ⟨13, _⟩ => ⟨S512x8x11008, .i32⟩
  | .hbm, ⟨14, _⟩ => ⟨S_, .i32⟩
  | .hbm, ⟨15, _⟩ => ⟨S512x8x11008, .i32⟩
  | .hbm, ⟨16, _⟩ => ⟨S512x8x11008, .i32⟩
  | .hbm, ⟨17, _⟩ => ⟨S4096x11008, .i32⟩
  | .hbm, ⟨18, _⟩ => ⟨S4096x11008, .f32⟩
  | .hbm, ⟨19, _⟩ => ⟨S32x128x11008, .f32⟩
  | .hbm, ⟨20, _⟩ => ⟨S4096x11008, .f32⟩
  | .hbm, ⟨21, _⟩ => ⟨S32x128x11008, .f32⟩
  | .hbm, ⟨22, _⟩ => ⟨S4096x11008, .f32⟩
  | .hbm, ⟨23, _⟩ => ⟨S4096x11008, .f32⟩
  | .hbm, ⟨24, _⟩ => ⟨S4096x11008, .f32⟩
  | .hbm, ⟨25, _⟩ => ⟨S16x11008, .f32⟩
  | .hbm, ⟨26, _⟩ => ⟨S1x11008, .f32⟩
  | .hbm, ⟨27, _⟩ => ⟨S16x11008, .f32⟩
  | .hbm, ⟨28, _⟩ => ⟨S16x11008, .f32⟩
  | _, _ => ⟨S16x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩

abbrev nD : Nat := 1
abbrev τ : Topo := Topo.v7x

variable {F : FTy → Type} [FloatOps F]

class Facts₀ : Prop where
  bcast_S_S8 : S_.BroadcastsInDim S8 (![] : Fin 0 → Fin S8.rank)
  bcast_S512x11008_S512x1x11008_0_2 : S512x11008.BroadcastsInDim S512x1x11008 (![0, 2] : Fin 2 → Fin S512x1x11008.rank)
  bcast_S8_S1x8x1_1 : S8.BroadcastsInDim S1x8x1 (![1] : Fin 1 → Fin S1x8x1.rank)
  bcast_S512x1x11008_S512x8x11008_0_1_2 : S512x1x11008.BroadcastsInDim S512x8x11008 (![0, 1, 2] : Fin 3 → Fin S512x8x11008.rank)
  bcast_S1x8x1_S512x8x11008_0_1_2 : S1x8x1.BroadcastsInDim S512x8x11008 (![0, 1, 2] : Fin 3 → Fin S512x8x11008.rank)
  bcast_S_S512x8x11008 : S_.BroadcastsInDim S512x8x11008 (![] : Fin 0 → Fin S512x8x11008.rank)
  shapeCasts_S512x8x11008_S4096x11008 : S512x8x11008.ShapeCasts S4096x11008
  bcast_S32x11008_S32x128x11008_0_2 : S32x11008.BroadcastsInDim S32x128x11008 (![0, 2] : Fin 2 → Fin S32x128x11008.rank)
  shapeCasts_S32x128x11008_S4096x11008 : S32x128x11008.ShapeCasts S4096x11008
  bcast_S11008_S1x11008_1 : S11008.BroadcastsInDim S1x11008 (![1] : Fin 1 → Fin S1x11008.rank)
  bcast_S1x11008_S16x11008_0_1 : S1x11008.BroadcastsInDim S16x11008 (![0, 1] : Fin 2 → Fin S16x11008.rank)
  dot_S16x4096_S4096x11008_S16x11008_1_0_0_1_n_n_wf : DotDims.WF S16x4096 S4096x11008 S16x11008 [1] [0] [0] [1] [] []

variable [Facts₀]

def dot_S16x4096_S4096x11008_S16x11008_1_0_0_1_n_n : DotDims S16x4096 S4096x11008 S16x11008 where
  lhsContracting := [1]
  rhsContracting := [0]
  lhsNonContracting := [0]
  rhsNonContracting := [1]
  lhsBatch := []
  rhsBatch := []
  wf := dot_S16x4096_S4096x11008_S16x11008_1_0_0_1_n_n_wf

class Facts : Prop extends Facts₀ where

variable [Facts]
-- ==== Proof.Spec.lean ====
/-
  The arithmetic of one output entry, on the extended reals.

  An output entry (p, q) depends on row p of x (4096 entries), column q of the packed words (512 words of eight
  nibbles), column q of the scales and zero points (32 entries each: one per group of 128 reduction indices) and bias q.
  The kernel accumulates group by group
      acc <- acc + s_g * (sum_k x_k * n_k) - (s_g * z_g) * (sum_k x_k)          (k over the group's 128 indices)
  and adds the bias; the reference computes  sum_K x_K * ((n_K - z_(K/128)) * s_(K/128)) + bias.
  With every float input a real number the two agree: distributivity, which holds on the reals.
-/
import Idealize.ShloMosaic.PureOps.Ideal
import Idealize.ShloMosaic.PureOps.Ideal.Laws
import Mathlib.Data.EReal.Basic
import Mathlib.Data.EReal.Operations
import Mathlib.Algebra.BigOperators.Fin
import Mathlib.Data.Fintype.BigOperators
import Mathlib.Tactic.Ring

noncomputable section

namespace Cert.Deq

open Idealize.ShloMosaic

/-- Nibble e of a packed word (shift right arithmetically by 4e, keep the low four bits), as an extended real. -/
def nibE (w : BitVec 32) (e : Fin 8) : EReal := ((((w.sshiftRight (4 * e.val)) &&& 15#32).toInt : ℝ) : EReal)

/-- The 32 groups in order. -/
def groups : List (Fin 32) :=
  [0, 1, 2, 3, 4, 5, 6, 7, 8, 9, 10, 11, 12, 13, 14, 15, 16, 17, 18, 19, 20, 21, 22, 23, 24, 25, 26, 27, 28, 29, 30, 31]

/-- Reduction index k of group g. -/
def kIdx (g : Fin 32) (k : Fin 128) : Fin 4096 := ⟨128 * g.val + k.val, by have := g.isLt; have := k.isLt; omega⟩
/-- The packed word that holds reduction index k of group g. -/
def wIdx (g : Fin 32) (k : Fin 128) : Fin 512 := ⟨16 * g.val + k.val / 8, by have := g.isLt; have := k.isLt; omega⟩
/-- Which nibble of its word reduction index k is. -/
def eIdx (k : Fin 128) : Fin 8 := ⟨k.val % 8, Nat.mod_lt _ (by decide)⟩

/-- One group's update of the running value. -/
def gStep (x : Fin 4096 → EReal) (w : Fin 512 → BitVec 32) (s z : Fin 32 → EReal) (a : EReal) (g : Fin 32) : EReal :=
  (a + s g * ∑ k : Fin 128, x (kIdx g k) * nibE (w (wIdx g k)) (eIdx k)) - (s g * z g) * ∑ k : Fin 128, x (kIdx g k)

/-- The kernel's value of an entry. -/
def kval (x : Fin 4096 → EReal) (w : Fin 512 → BitVec 32) (s z : Fin 32 → EReal) (b : EReal) : EReal :=
  groups.foldl (gStep x w s z) 0 + b

/-- The reference's value of an entry. -/
def rval (x : Fin 4096 → EReal) (w : Fin 512 → BitVec 32) (s z : Fin 32 → EReal) (b : EReal) : EReal :=
  (∑ K : Fin 4096, x K * ((nibE (w ⟨K.val / 8, by have := K.isLt; omega⟩) ⟨K.val % 8, Nat.mod_lt _ (by decide)⟩
      - z ⟨K.val / 128, by have := K.isLt; omega⟩) * s ⟨K.val / 128, by have := K.isLt; omega⟩)) + b

/-- The coercion of the reals into the extended reals commutes with finite sums. -/
theorem coe_finset_sum {ι : Type*} (t : Finset ι) (f : ι → ℝ) :
    ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- The real number under a nibble. -/
def nibR (w : BitVec 32) (e : Fin 8) : ℝ := (((w.sshiftRight (4 * e.val)) &&& 15#32).toInt : ℝ)

theorem nibE_eq (w : BitVec 32) (e : Fin 8) : nibE w e = (nibR w e : EReal) := rfl

/-- One group's contribution, on the reals. -/
def tR (xr : Fin 4096 → ℝ) (w : Fin 512 → BitVec 32) (sr zr : Fin 32 → ℝ) (g : Fin 32) : ℝ :=
  sr g * ∑ k : Fin 128, xr (kIdx g k) * nibR (w (wIdx g k)) (eIdx k) - (sr g * zr g) * ∑ k : Fin 128, xr (kIdx g k)

/-- One update from a real running value with real inputs is the coercion of the real update. -/
theorem gStep_coe (xr : Fin 4096 → ℝ) (w : Fin 512 → BitVec 32) (sr zr : Fin 32 → ℝ) (a : ℝ) (g : Fin 32) :
    gStep (fun K => (xr K : EReal)) w (fun g => (sr g : EReal)) (fun g => (zr g : EReal)) (a : EReal) g
      = ((a + tR xr w sr zr g : ℝ) : EReal) := by
  have e : a + tR xr w sr zr g
      = (a + sr g * ∑ k : Fin 128, xr (kIdx g k) * nibR (w (wIdx g k)) (eIdx k))
          - (sr g * zr g) * ∑ k : Fin 128, xr (kIdx g k) := by
    unfold tR; ring
  rw [e, EReal.coe_sub, EReal.coe_add, EReal.coe_mul, EReal.coe_mul, EReal.coe_mul, coe_finset_sum, coe_finset_sum]
  unfold gStep
  simp only [nibE_eq, EReal.coe_mul]

/-- Folding the updates over a list of groups from a real value, with real inputs, gives the coercion of the real sum. -/
theorem foldl_coe (xr : Fin 4096 → ℝ) (w : Fin 512 → BitVec 32) (sr zr : Fin 32 → ℝ) (L : List (Fin 32)) (a : ℝ) :
    L.foldl (gStep (fun K => (xr K : EReal)) w (fun g => (sr g : EReal)) (fun g => (zr g : EReal))) (a : EReal)
      = ((a + (L.map (tR xr w sr zr)).sum : ℝ) : EReal) := by
  induction L generalizing a with
  | nil => simp
  | cons g L ih =>
    rw [List.foldl_cons, gStep_coe, ih, List.map_cons, List.sum_cons, add_assoc]

/-- The listed groups are all of them, once each, in order. -/
theorem groups_eq : groups = List.finRange 32 := by decide

/-- A reduction index is a group and an index within the group. -/
def gkEquiv : Fin 32 × Fin 128 ≃ Fin 4096 where
  toFun p := kIdx p.1 p.2
  invFun K := (⟨K.val / 128, by have := K.isLt; omega⟩, ⟨K.val % 128, Nat.mod_lt _ (by decide)⟩)
  left_inv := by
    rintro ⟨g, k⟩
    have := g.isLt; have := k.isLt
    refine Prod.ext (Fin.ext ?_) (Fin.ext ?_)
    · show (128 * g.val + k.val) / 128 = g.val
      omega
    · show (128 * g.val + k.val) % 128 = k.val
      omega
  right_inv := by
    intro K
    refine Fin.ext ?_
    show 128 * (K.val / 128) + K.val % 128 = K.val
    omega

/-- A sum over the reduction indices is a sum over the groups of the sums within each group. -/
theorem sum_split (F : Fin 4096 → ℝ) : ∑ K : Fin 4096, F K = ∑ g : Fin 32, ∑ k : Fin 128, F (kIdx g k) := by
  rw [← Fintype.sum_prod_type' (fun g k => F (kIdx g k))]
  exact (Fintype.sum_equiv gkEquiv (fun p => F (kIdx p.1 p.2)) F (fun _ => rfl)).symm

theorem kIdx_div8 (g : Fin 32) (k : Fin 128) (h : (kIdx g k).val / 8 < 512) :
    (⟨(kIdx g k).val / 8, h⟩ : Fin 512) = wIdx g k := by
  have := g.isLt; have := k.isLt
  refine Fin.ext ?_
  show (128 * g.val + k.val) / 8 = 16 * g.val + k.val / 8
  omega

theorem kIdx_mod8 (g : Fin 32) (k : Fin 128) (h : (kIdx g k).val % 8 < 8) :
    (⟨(kIdx g k).val % 8, h⟩ : Fin 8) = eIdx k := by
  have := g.isLt; have := k.isLt
  refine Fin.ext ?_
  show (128 * g.val + k.val) % 8 = k.val % 8
  omega

theorem kIdx_div128 (g : Fin 32) (k : Fin 128) (h : (kIdx g k).val / 128 < 32) :
    (⟨(kIdx g k).val / 128, h⟩ : Fin 32) = g := by
  have := g.isLt; have := k.isLt
  refine Fin.ext ?_
  show (128 * g.val + k.val) / 128 = g.val
  omega

/-- The reference's sum, on the reals, is the sum of the groups' contributions: distributivity. -/
theorem real_identity (xr : Fin 4096 → ℝ) (w : Fin 512 → BitVec 32) (sr zr : Fin 32 → ℝ) :
    ∑ K : Fin 4096, xr K * ((nibR (w ⟨K.val / 8, by have := K.isLt; omega⟩) ⟨K.val % 8, Nat.mod_lt _ (by decide)⟩
        - zr ⟨K.val / 128, by have := K.isLt; omega⟩) * sr ⟨K.val / 128, by have := K.isLt; omega⟩)
      = ∑ g : Fin 32, tR xr w sr zr g := by
  rw [sum_split]
  refine Finset.sum_congr rfl (fun g _ => ?_)
  unfold tR
  rw [Finset.mul_sum, Finset.mul_sum, ← Finset.sum_sub_distrib]
  refine Finset.sum_congr rfl (fun k _ => ?_)
  rw [kIdx_div8, kIdx_mod8, kIdx_div128]
  ring

/-- With real inputs the two values agree. -/
theorem kval_eq_rval (x : Fin 4096 → EReal) (w : Fin 512 → BitVec 32) (s z : Fin 32 → EReal) (b : EReal)
    (hx : ∀ K, ∃ r : ℝ, x K = (r : EReal)) (hs : ∀ g, ∃ r : ℝ, s g = (r : EReal)) (hz : ∀ g, ∃ r : ℝ, z g = (r : EReal))
    (hb : ∃ r : ℝ, b = (r : EReal)) : kval x w s z b = rval x w s z b := by
  choose xr hxr using hx
  choose sr hsr using hs
  choose zr hzr using hz
  obtain ⟨br, rfl⟩ := hb
  obtain rfl : x = fun K => (xr K : EReal) := funext hxr
  obtain rfl : s = fun g => (sr g : EReal) := funext hsr
  obtain rfl : z = fun g => (zr g : EReal) := funext hzr
  unfold kval rval
  refine congrArg (fun t : EReal => t + (br : EReal)) ?_
  rw [← EReal.coe_zero, foldl_coe, groups_eq, ← Fin.sum_univ_def, zero_add, ← real_identity, coe_finset_sum]
  refine Finset.sum_congr rfl (fun K _ => ?_)
  rw [EReal.coe_mul, EReal.coe_mul, EReal.coe_sub]
  rfl

end Cert.Deq

end
-- ==== Proof.Fold.lean ====
/-
  The kernel body's one store, restated as a fold over the 32 groups of 128 reduction indices.
  Each group g reads sixteen packed words rows 16g..16g+15, the matching 128 columns of x, and row g of the
  scales and of the zero points, and updates the accumulator by
      acc + s_g * (x_g · nibbles_g) - (s_g * z_g) * rowsum(x_g).
-/
import proofs.«427976_j11098195492906_2_alg».proof.Proof.Gen.KernelIdeal.Frame
import proofs.«427976_j11098195492906_2_alg».proof.Proof.Spec

set_option maxRecDepth 16384

noncomputable section

namespace Cert.KernelIdeal.Deq

open Idealize.ShloMosaic Idealize.ShloMosaic.TcCoe Idealize.SL.Sem
open Cert.KernelIdeal Cert.KernelIdeal.Gen Cert.Deq

variable {F : FTy → Type} [FloatOps F]

/-- The shift amounts 0, 4, …, 28, one per nibble of a word. -/
abbrev shifts : IVec S1x8x1 32 := k0_pay2

/-- The 128 × 512 block of nibbles of sixteen rows of packed words: row 8a+e is nibble e of word row a. -/
def nibbles (w : Vec F S16x512 .i32) : IVec S128x512 32 :=
  shapeCast S128x512
    (andi (shrsi (broadcastTo S16x8x512 (shapeCast S16x1x512 (shapeCast S16x512 w shapeCasts_S16x512_S16x512) shapeCasts_S16x512_S16x1x512) broadcasts_S16x1x512_S16x8x512)
        (broadcastTo S16x8x512 shifts broadcasts_S1x8x1_S16x8x512)) (broadcast S16x8x512 15#32))
    shapeCasts_S16x8x512_S128x512

/-- One group's update of the accumulator. -/
def step (acc : FVec F S16x512 .f32) (w : Vec F S16x512 .i32) (x : Vec F S16x128 .f32) (s z : Vec F S1x512 .f32) : FVec F S16x512 .f32 :=
  subf
    (addf acc
      (mulf (broadcastTo S16x512 (shapeCast S1x512 s shapeCasts_S1x512_S1x512) broadcasts_S1x512_S16x512)
        (matmul dot_S16x128_S128x512_S16x512_1_0_0_1_n_n none (truncf .bf16 x bitsLt_bf16_f32) (sitofp .bf16 (nibbles (F := F) w))
          (constant S16x512 .f32 0x00000000#32))))
    (mulf
      (broadcastTo S16x512 (mulf (shapeCast S1x512 s shapeCasts_S1x512_S1x512) (shapeCast S1x512 z shapeCasts_S1x512_S1x512)) broadcasts_S1x512_S16x512)
      (broadcastTo S16x512 (shapeCast S16x1 (multiReduction .add [1] S16 x 0x00000000#32 reduces_S16x128_S16 (.inl rfl) rfl) shapeCasts_S16_S16x1) broadcasts_S16x1_S16x512))

theorem inbW (g : Fin 32) : ∀ a, (![16 * g.val, 0] : Fin 2 → Nat) a + S16x512.size a ≤ S512x512.size a :=
  Rect.inb₂ (by have := g.isLt; show 16 * g.val + 16 ≤ 512; omega) (by show (0 : Nat) + 512 ≤ 512; omega)
theorem inbX (g : Fin 32) : ∀ a, (![0, 128 * g.val] : Fin 2 → Nat) a + S16x128.size a ≤ S16x4096.size a :=
  Rect.inb₂ (by show (0 : Nat) + 16 ≤ 16; omega) (by have := g.isLt; show 128 * g.val + 128 ≤ 4096; omega)
theorem inbS (g : Fin 32) : ∀ a, (![g.val, 0] : Fin 2 → Nat) a + S1x512.size a ≤ S32x512.size a :=
  Rect.inb₂ (by have := g.isLt; show g.val + 1 ≤ 32; omega) (by show (0 : Nat) + 512 ≤ 512; omega)

/-- Group g's sixteen rows of packed words, its 128 columns of x, its row of scales / zero points. -/
abbrev rW (g : Fin 32) : Rect S512x512 := Rect.unit (s := S512x512) ![16 * g.val, 0] S16x512.size (inbW g)
abbrev rX (g : Fin 32) : Rect S16x4096 := Rect.unit (s := S16x4096) ![0, 128 * g.val] S16x128.size (inbX g)
abbrev rS (g : Fin 32) : Rect S32x512 := Rect.unit (s := S32x512) ![g.val, 0] S1x512.size (inbS g)

/-- The accumulator after the groups of L, from acc. -/
def accum (x0 : Vec F S16x4096 .f32) (x1 : Vec F S512x512 .i32) (x2 x3 : Vec F S32x512 .f32) (L : List (Fin 32)) (acc : FVec F S16x512 .f32) : FVec F S16x512 .f32 :=
  L.foldl (fun a g => step a (View.ld x1 (rW g)) (View.ld x0 (rX g)) (View.ld x2 (rS g)) (View.ld x3 (rS g))) acc

/-- The block the body stores: the accumulator after all 32 groups, plus the bias row. -/
def blockVal (x0 : Vec F S16x4096 .f32) (x1 : Vec F S512x512 .i32) (x2 x3 : Vec F S32x512 .f32) (x4 : Vec F S1x512 .f32) : FVec F S16x512 .f32 :=
  addf (accum x0 x1 x2 x3 groups (broadcast S16x512 (Scalar.ofBits .f32 0x00000000#32)))
    (broadcastTo S16x512 (shapeCast S1x512 (View.ld x4 r0_96) shapeCasts_S1x512_S1x512) broadcasts_S1x512_S16x512)

set_option maxHeartbeats 1000000 in
theorem out0_5_eq (x0 : Vec F S16x4096 .f32) (x1 : Vec F S512x512 .i32) (x2 x3 : Vec F S32x512 .f32) (x4 : Vec F S1x512 .f32) :
    out0_5 x0 x1 x2 x3 x4 = View.canon [⟨r0_97, blockVal x0 x1 x2 x3 x4⟩] := rfl

end Cert.KernelIdeal.Deq

end
-- ==== Proof.StepVal.lean ====
/-
  One group's update read at an entry (p, q) of the 16 × 512 block, on the extended reals:
      acc[p,q] + s[q] * (sum over k < 128 of x[p,k] * nibble (k mod 8) of word (k / 8, q)) - (s[q] * z[q]) * (sum over k of x[p,k]).
  The matrix product into the zero accumulator is the plain sum over the 128 contracted indices; row 8a+e of the
  nibble block is nibble e of word row a (the row-major reshape of 16 × 8 × 512 to 128 × 512); the lane sum with
  initial value zero is the plain row sum; the changes of float format are the identity.
-/
import proofs.«427976_j11098195492906_2_alg».proof.Proof.Fold
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Deq

open Idealize.ShloMosaic Idealize.ShloMosaic.TcCoe Idealize.ShloMosaic.ValueIdx Idealize.SL.Sem
open Cert.KernelIdeal Cert.KernelIdeal.Gen Cert.Deq

/-- The shift amount of nibble e is 4e. -/
theorem shiftAmt_toNat : ∀ e : Fin 8, (BitVec.ofNat 32 e.val * 4#32).toNat = 4 * e.val := by decide

/-- An arithmetic shift right by the shift amount of nibble e is the shift by 4e (which is below the word width). -/
theorem shrsi_shiftAmt (b : BitVec 32) (e : Fin 8) :
    IntOp.shrsi .vector b (BitVec.ofNat 32 e.val * 4#32) = b.sshiftRight (4 * e.val) := by
  unfold IntOp.shrsi
  rw [if_pos (by rw [shiftAmt_toNat]; have := e.isLt; omega)]
  show b.sshiftRight (BitVec.ofNat 32 e.val * 4#32).toNat = _
  rw [shiftAmt_toNat]

/-- The shift amounts, broadcast over the 16 × 8 × 512 block, read at (a, e, c): the amount of nibble e. -/
theorem shifts_bcast_apply (a : Fin 16) (e : Fin 8) (c : Fin 512) :
    broadcastTo S16x8x512 shifts broadcasts_S1x8x1_S16x8x512 (ix3 a e c) = BitVec.ofNat 32 e.val * 4#32 := by
  refine (broadcastTo_apply shifts broadcasts_S1x8x1_S16x8x512 (ix3 a e c) (ix3 (0 : Fin 1) e (0 : Fin 1)) fun ax => ?_).trans ?_
  · match ax with
    | ⟨0, _⟩ => show 0 = if (1 : Nat) = 1 then 0 else a.val; rw [if_pos rfl]
    | ⟨1, _⟩ => show e.val = if (8 : Nat) = 1 then 0 else e.val; rw [if_neg (by decide)]
    | ⟨2, _⟩ => show 0 = if (1 : Nat) = 1 then 0 else c.val; rw [if_pos rfl]
  · show IntOp.muli (iota .tc S1x8x1 32 [1] iota_S1x8x1_d1_w32 (ix3 (0 : Fin 1) e (0 : Fin 1))) 4#32 = _
    rw [iota_single_apply]
    rfl

/-- The packed words, with a unit axis inserted and broadcast over the eight nibbles, read at (a, e, c): word (a, c). -/
theorem words_bcast_apply (w : Vec Ideal S16x512 .i32) (a : Fin 16) (e : Fin 8) (c : Fin 512) :
    broadcastTo S16x8x512 (shapeCast S16x1x512 (shapeCast S16x512 w shapeCasts_S16x512_S16x512) shapeCasts_S16x512_S16x1x512)
      broadcasts_S16x1x512_S16x8x512 (ix3 a e c) = w (ix2 a c) := by
  rw [shapeCast_self]
  refine (broadcastTo_apply _ broadcasts_S16x1x512_S16x8x512 (ix3 a e c) (ix3 a (0 : Fin 1) c) fun ax => ?_).trans ?_
  · match ax with
    | ⟨0, _⟩ => show a.val = if (16 : Nat) = 1 then 0 else a.val; rw [if_neg (by decide)]
    | ⟨1, _⟩ => show 0 = if (1 : Nat) = 1 then 0 else e.val; rw [if_pos rfl]
    | ⟨2, _⟩ => show c.val = if (512 : Nat) = 1 then 0 else c.val; rw [if_neg (by decide)]
  · refine shapeCast_apply w shapeCasts_S16x512_S16x1x512 (ix3 a (0 : Fin 1) c) (ix2 a c) ?_
    rw [Shape.rowMajor_val_two, Shape.rowMajor_val_three]
    show a.val * 512 + c.val = (a.val * 1 + 0) * 512 + c.val
    omega

/-- Row k, column c of the nibble block: nibble k mod 8 of word (k / 8, c). -/
theorem nibbles_apply (w : Vec Ideal S16x512 .i32) (k : Fin 128) (c : Fin 512) :
    nibbles (F := Ideal) w (ix2 k c)
      = (w (ix2 (⟨k.val / 8, by have := k.isLt; omega⟩ : Fin 16) c)).sshiftRight (4 * (k.val % 8)) &&& 15#32 := by
  unfold nibbles
  refine (shapeCast_apply _ shapeCasts_S16x8x512_S128x512 (ix2 k c)
    (ix3 (⟨k.val / 8, by have := k.isLt; omega⟩ : Fin 16) (⟨k.val % 8, Nat.mod_lt _ (by decide)⟩ : Fin 8) c) ?_).trans ?_
  · rw [Shape.rowMajor_val_two, Shape.rowMajor_val_three]
    show (k.val / 8 * 8 + k.val % 8) * 512 + c.val = k.val * 512 + c.val
    have := Nat.div_add_mod k.val 8
    omega
  · show IntOp.andi (IntOp.shrsi .vector (broadcastTo S16x8x512 _ broadcasts_S16x1x512_S16x8x512 _) (broadcastTo S16x8x512 shifts broadcasts_S1x8x1_S16x8x512 _)) 15#32 = _
    rw [words_bcast_apply, shifts_bcast_apply, shrsi_shiftAmt]
    rfl

theorem lhs_dot_0 (i : S16x512.Idx) (r : dot_S16x128_S128x512_S16x512_1_0_0_1_n_n.contr.Idx) :
    (dot_S16x128_S128x512_S16x512_1_0_0_1_n_n.lhsIdx i r 0).val = (i 0).val := by
  unfold DotDims.lhsIdx
  rw [dif_neg (show ¬(0 : Fin S16x128.rank) ∈ dot_S16x128_S128x512_S16x512_1_0_0_1_n_n.lhsBatch by decide), dif_pos (show (0 : Fin S16x128.rank) ∈ dot_S16x128_S128x512_S16x512_1_0_0_1_n_n.lhsNonContracting by decide)]
  rfl
theorem lhs_dot_1 (i : S16x512.Idx) (r : dot_S16x128_S128x512_S16x512_1_0_0_1_n_n.contr.Idx) :
    (dot_S16x128_S128x512_S16x512_1_0_0_1_n_n.lhsIdx i r 1).val = (r ⟨0, by decide⟩).val :=
  dot_S16x128_S128x512_S16x512_1_0_0_1_n_n.lhsIdx_val_of_single rfl i r
theorem rhs_dot_0 (i : S16x512.Idx) (r : dot_S16x128_S128x512_S16x512_1_0_0_1_n_n.contr.Idx) :
    (dot_S16x128_S128x512_S16x512_1_0_0_1_n_n.rhsIdx i r 0).val = (r ⟨0, by decide⟩).val :=
  dot_S16x128_S128x512_S16x512_1_0_0_1_n_n.rhsIdx_val_of_single rfl i r
theorem rhs_dot_1 (i : S16x512.Idx) (r : dot_S16x128_S128x512_S16x512_1_0_0_1_n_n.contr.Idx) :
    (dot_S16x128_S128x512_S16x512_1_0_0_1_n_n.rhsIdx i r 1).val = (i 1).val := by
  unfold DotDims.rhsIdx
  rw [dif_neg (show ¬(1 : Fin S128x512.rank) ∈ dot_S16x128_S128x512_S16x512_1_0_0_1_n_n.rhsBatch by decide), dif_pos (show (1 : Fin S128x512.rank) ∈ dot_S16x128_S128x512_S16x512_1_0_0_1_n_n.rhsNonContracting by decide)]
  rfl

/-- The matrix product into the zero accumulator, read at (p, c): the sum over the 128 contracted indices. -/
theorem mm_apply (A : FVec Ideal S16x128 .bf16) (B : FVec Ideal S128x512 .bf16) (p : Fin 16) (c : Fin 512) :
    matmul dot_S16x128_S128x512_S16x512_1_0_0_1_n_n none A B (constant S16x512 .f32 0x00000000#32) (ix2 p c)
      = ∑ k : Fin 128, A (ix2 p k) * B (ix2 k c) := by
  simp only [matmul]
  rw [Ideal.matmul_constant_zero_apply, ← Equiv.sum_comp (contrEquiv1 dot_S16x128_S128x512_S16x512_1_0_0_1_n_n 128 rfl rfl).symm]
  refine Finset.sum_congr rfl fun k _ => ?_
  have hk := contrEquiv1_symm_val dot_S16x128_S128x512_S16x512_1_0_0_1_n_n 128 rfl rfl k
  have el : dot_S16x128_S128x512_S16x512_1_0_0_1_n_n.lhsIdx (ix2 p c) ((contrEquiv1 dot_S16x128_S128x512_S16x512_1_0_0_1_n_n 128 rfl rfl).symm k) = ix2 p k := funext fun a => Fin.ext (by
    match a with
    | ⟨0, _⟩ => exact lhs_dot_0 _ _
    | ⟨1, _⟩ => exact (lhs_dot_1 _ _).trans hk)
  have er : dot_S16x128_S128x512_S16x512_1_0_0_1_n_n.rhsIdx (ix2 p c) ((contrEquiv1 dot_S16x128_S128x512_S16x512_1_0_0_1_n_n 128 rfl rfl).symm k) = ix2 k c := funext fun a => Fin.ext (by
    match a with
    | ⟨0, _⟩ => exact (rhs_dot_0 _ _).trans hk
    | ⟨1, _⟩ => exact rhs_dot_1 _ _)
  rw [el, er]

/-- A row broadcast over the sixteen rows, read at (p, c): the row at c. -/
theorem rowB_apply (v : FVec Ideal S1x512 .f32) (p : Fin 16) (c : Fin 512) :
    broadcastTo S16x512 v broadcasts_S1x512_S16x512 (ix2 p c) = v (ix2 (0 : Fin 1) c) :=
  broadcastTo_1b_ab_apply v broadcasts_S1x512_S16x512 p c

/-- The lane sum with initial value zero, as a column broadcast over the 512 columns, read at (p, c): the sum of row p. -/
theorem colB_apply (x : Vec Ideal S16x128 .f32) (p : Fin 16) (c : Fin 512) :
    broadcastTo S16x512 (shapeCast S16x1 (multiReduction (F := Ideal) .add [1] S16 x 0x00000000#32 reduces_S16x128_S16 (.inl rfl) rfl) shapeCasts_S16_S16x1)
      broadcasts_S16x1_S16x512 (ix2 p c) = ∑ k : Fin 128, x (ix2 p k) := by
  refine (broadcastTo_apply _ broadcasts_S16x1_S16x512 (ix2 p c) (ix2 p (0 : Fin 1)) fun ax => ?_).trans ?_
  · match ax with
    | ⟨0, _⟩ => show p.val = if (16 : Nat) = 1 then 0 else p.val; rw [if_neg (by decide)]
    | ⟨1, _⟩ => show 0 = if (1 : Nat) = 1 then 0 else c.val; rw [if_pos rfl]
  refine (shapeCast_apply _ shapeCasts_S16_S16x1 (ix2 p (0 : Fin 1)) (ix1 p) ?_).trans ?_
  · rw [Shape.rowMajor_val_one, Shape.rowMajor_val_two]
    show p.val = p.val * 1 + 0
    omega
  refine (Ideal.multiReduction_add_single x _ reduces_S16x128_S16 _ _ (ix1 p)).trans ?_
  refine Finset.sum_congr rfl fun k _ => congrArg x (funext fun a => ?_)
  match a with
  | ⟨0, _⟩ => rfl
  | ⟨1, _⟩ => rfl

theorem step_apply (acc : FVec Ideal S16x512 .f32) (w : Vec Ideal S16x512 .i32) (x : Vec Ideal S16x128 .f32) (s z : Vec Ideal S1x512 .f32)
    (p : Fin 16) (q : Fin 512) :
    step (F := Ideal) acc w x s z (ix2 p q)
      = (acc (ix2 p q) + s (ix2 (0 : Fin 1) q) * ∑ k : Fin 128, x (ix2 p k) * nibE (w (ix2 (⟨k.val / 8, by have := k.isLt; omega⟩ : Fin 16) q)) (eIdx k))
        - (s (ix2 (0 : Fin 1) q) * z (ix2 (0 : Fin 1) q)) * ∑ k : Fin 128, x (ix2 p k) := by
  have h1 : broadcastTo S16x512 (shapeCast S1x512 s shapeCasts_S1x512_S1x512) broadcasts_S1x512_S16x512 (ix2 p q) = s (ix2 (0 : Fin 1) q) := by
    rw [shapeCast_self]; exact rowB_apply s p q
  have h2 : broadcastTo S16x512 (mulf (F := Ideal) (φ := .f32) (shapeCast S1x512 s shapeCasts_S1x512_S1x512) (shapeCast S1x512 z shapeCasts_S1x512_S1x512)) broadcasts_S1x512_S16x512 (ix2 p q)
      = s (ix2 (0 : Fin 1) q) * z (ix2 (0 : Fin 1) q) := by
    rw [shapeCast_self, shapeCast_self]; exact rowB_apply (mulf (F := Ideal) (φ := .f32) s z) p q
  have h3 := colB_apply x p q
  have h4 : matmul dot_S16x128_S128x512_S16x512_1_0_0_1_n_n none (truncf (F := Ideal) .bf16 x bitsLt_bf16_f32) (sitofp (F := Ideal) .bf16 (nibbles (F := Ideal) w))
        (constant S16x512 .f32 0x00000000#32) (ix2 p q)
      = ∑ k : Fin 128, x (ix2 p k) * nibE (w (ix2 (⟨k.val / 8, by have := k.isLt; omega⟩ : Fin 16) q)) (eIdx k) := by
    refine (mm_apply _ _ p q).trans (Finset.sum_congr rfl fun k _ => ?_)
    show x (ix2 p k) * (((nibbles (F := Ideal) w (ix2 k q)).toInt : ℝ) : EReal) = _
    rw [nibbles_apply]
    rfl
  unfold step
  exact congrArg₂ (· - ·) (congrArg₂ (· + ·) rfl (congrArg₂ (· * ·) h1 h4)) (congrArg₂ (· * ·) h2 h3)

end Cert.KernelIdeal.Deq

end
-- ==== Proof.BlockVal.lean ====
/-
  The stored block read at an entry (p, q): the fold over the 32 groups, each group's update read at the entry,
  is the running value of that entry; the loads through the group's rectangles read the staging buffers at the
  group's offsets (word rows 16g + a, x columns 128g + k, row g of the scales and zero points); the accumulator
  starts at zero and the bias row is added at the end.
-/
import proofs.«427976_j11098195492906_2_alg».proof.Proof.StepVal

noncomputable section

namespace Cert.KernelIdeal.Deq

open Idealize.ShloMosaic Idealize.ShloMosaic.TcCoe Idealize.ShloMosaic.ValueIdx Idealize.SL.Sem
open Cert.KernelIdeal Cert.KernelIdeal.Gen Cert.Deq

/-- Group g's load of x reads columns 128g + k. -/
theorem ld_X (x0 : Vec Ideal S16x4096 .f32) (g : Fin 32) (p : Fin 16) (k : Fin 128) :
    View.ld x0 (rX g) (ix2 p k) = x0 (ix2 p (kIdx g k)) :=
  congrArg x0 (funext fun d => Fin.ext (by
    match d with
    | ⟨0, _⟩ => show 0 + 1 * p.val = p.val; omega
    | ⟨1, _⟩ => show 128 * g.val + 1 * k.val = 128 * g.val + k.val; omega))

/-- Group g's load of the packed words reads rows 16g + a; row k / 8 of the load is the word of reduction index k. -/
theorem ld_W (x1 : Vec Ideal S512x512 .i32) (g : Fin 32) (k : Fin 128) (h : k.val / 8 < 16) (q : Fin 512) :
    View.ld x1 (rW g) (ix2 (⟨k.val / 8, h⟩ : Fin 16) q) = x1 (ix2 (wIdx g k) q) :=
  congrArg x1 (funext fun d => Fin.ext (by
    match d with
    | ⟨0, _⟩ => show 16 * g.val + 1 * (k.val / 8) = 16 * g.val + k.val / 8; omega
    | ⟨1, _⟩ => show 0 + 1 * q.val = q.val; omega))

/-- Group g's load of the scales (or zero points) reads row g. -/
theorem ld_S (x2 : Vec Ideal S32x512 .f32) (g : Fin 32) (q : Fin 512) :
    View.ld x2 (rS g) (ix2 (0 : Fin 1) q) = x2 (ix2 g q) :=
  congrArg x2 (funext fun d => Fin.ext (by
    match d with
    | ⟨0, _⟩ => show g.val + 1 * 0 = g.val; omega
    | ⟨1, _⟩ => show 0 + 1 * q.val = q.val; omega))

/-- The accumulator after the groups of L, at an entry: the entry's running value after those groups. -/
theorem accum_apply (x0 : Vec Ideal S16x4096 .f32) (x1 : Vec Ideal S512x512 .i32) (x2 x3 : Vec Ideal S32x512 .f32) (p : Fin 16) (q : Fin 512) :
    ∀ (L : List (Fin 32)) (acc : FVec Ideal S16x512 .f32),
      accum (F := Ideal) x0 x1 x2 x3 L acc (ix2 p q)
        = L.foldl (gStep (fun K => x0 (ix2 p K)) (fun r => x1 (ix2 r q)) (fun g => x2 (ix2 g q)) (fun g => x3 (ix2 g q))) (acc (ix2 p q))
  | [], acc => rfl
  | g :: L, acc => by
    show accum (F := Ideal) x0 x1 x2 x3 L (step acc (View.ld x1 (rW g)) (View.ld x0 (rX g)) (View.ld x2 (rS g)) (View.ld x3 (rS g))) (ix2 p q) = _
    rw [accum_apply x0 x1 x2 x3 p q L, step_apply, List.foldl_cons]
    congr 1
    unfold gStep
    rw [ld_S x2, ld_S x3]
    congr 1
    · congr 2
      exact Finset.sum_congr rfl fun k _ => by rw [ld_X, ld_W]
    · congr 1
      exact Finset.sum_congr rfl fun k _ => by rw [ld_X]

theorem hz2 : (![0, 0] : Fin 2 → Nat) = fun _ => 0 := funext fun a => by fin_cases a <;> rfl

/-- The stored block at an entry is the kernel's value of that entry, of the staging buffers' row p, column q. -/
theorem blockVal_apply (x0 : Vec Ideal S16x4096 .f32) (x1 : Vec Ideal S512x512 .i32) (x2 x3 : Vec Ideal S32x512 .f32) (x4 : Vec Ideal S1x512 .f32)
    (p : Fin 16) (q : Fin 512) :
    blockVal (F := Ideal) x0 x1 x2 x3 x4 (ix2 p q)
      = kval (fun K => x0 (ix2 p K)) (fun r => x1 (ix2 r q)) (fun g => x2 (ix2 g q)) (fun g => x3 (ix2 g q)) (x4 (ix2 (0 : Fin 1) q)) := by
  have hzero : (broadcast S16x512 (Scalar.ofBits (F := Ideal) .f32 0x00000000#32) : FVec Ideal S16x512 .f32) (ix2 p q) = 0 :=
    Ideal.ofBits_zero_f32
  have hbias : (broadcastTo S16x512 (shapeCast S1x512 (View.ld x4 r0_96) shapeCasts_S1x512_S1x512) broadcasts_S1x512_S16x512 : FVec Ideal S16x512 .f32) (ix2 p q)
      = x4 (ix2 (0 : Fin 1) q) := by
    have e1 : (View.ld x4 r0_96 : Vec Ideal S1x512 .f32) = x4 := View.ld_unit_zero (S := S1x512) hz2 _ x4
    refine (broadcastTo_1b_ab_apply _ broadcasts_S1x512_S16x512 p q).trans ?_
    first
      | (rw [e1, shapeCast_self])
      | (simp only [View.ld_unit_zero (S := S1x512) hz2]; rw [shapeCast_self])
      | exact (congrFun (congrArg (fun v : Vec Ideal S1x512 .f32 => shapeCast S1x512 v shapeCasts_S1x512_S1x512) e1) _).trans (congrFun (shapeCast_self x4 _) _)
  unfold blockVal kval
  rw [addf_apply, accum_apply, hzero, hbias]

end Cert.KernelIdeal.Deq

end
-- ==== Proof.HostSide.lean ====
/-
  The host operations around the region, read at an entry. Before the region the packed words, the scales, the zero
  points and the bias are padded on the right from 11008 to 11264 columns (the bias then reshaped to one row): at a
  column below 11008 the padded array is the argument. After the region the 16 × 11264 result is cut back to its
  first 11008 columns: an entry of the cut is the same entry of the region's array.
-/
import proofs.«427976_j11098195492906_2_alg».proof.Proof.Gen.KernelIdeal.Frame
import Idealize.ShloMosaic.Lib.Pipeline.Value
import Idealize.ShloMosaic.Lib.ValueIdx
import Idealize.ShloMosaic.Lib.ValueLayout
import Idealize.ShloMosaic.Lib.KernelVsHost
import Idealize.ShloMosaic.Lib.StableHlo.Run

set_option maxRecDepth 16384

noncomputable section

namespace Cert.KernelIdeal.Deq

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ)

/-! ## The padded arrays, whole -/

/-- The packed words as the region finds them: the argument padded with 256 zero columns on the right. -/
theorem V_v0_eq (c : Dev nD) :
    (V (F := Ideal) m c main_v0 : S512x11264.Idx → BitVec 32)
      = pad S512x11264 ![0, 0] ![0, 256] ![0, 0] (m ((c : Thread nD τ).loc main_arg1) : S512x11008.Idx → BitVec 32)
          (constantI S_ 32 0#32) pads_S512x11008_S512x11264_000_02560 h_S_ := by
  dsimp only [V, V0]
  simp only [hostOps0, hostOps0_1, hostOps0_2, hostOps0_3, hostOps0_4, hostOps0_5, hostOps0_6, hostOps0_7, hostOps0_8,
    List.flatten_cons, List.flatten_nil, List.append_nil, List.cons_append, List.nil_append]
  after_results
  rfl

/-- The scales as the region finds them: the argument padded with 256 columns of the float of the integer 0. -/
theorem V_v1_eq (c : Dev nD) :
    (V (F := Ideal) m c main_v1 : S32x11264.Idx → EReal)
      = pad S32x11264 ![0, 0] ![0, 256] ![0, 0] (m ((c : Thread nD τ).loc main_arg2) : S32x11008.Idx → EReal)
          (sitofp (F := Ideal) .f32 (constantI S_ 32 0#32) : S_.Idx → EReal) pads_S32x11008_S32x11264_000_02560 h_S_ := by
  dsimp only [V, V0]
  simp only [hostOps0, hostOps0_1, hostOps0_2, hostOps0_3, hostOps0_4, hostOps0_5, hostOps0_6, hostOps0_7, hostOps0_8,
    List.flatten_cons, List.flatten_nil, List.append_nil, List.cons_append, List.nil_append]
  after_results
  rfl

/-- The zero points as the region finds them: the argument padded the same way. -/
theorem V_v2_eq (c : Dev nD) :
    (V (F := Ideal) m c main_v2 : S32x11264.Idx → EReal)
      = pad S32x11264 ![0, 0] ![0, 256] ![0, 0] (m ((c : Thread nD τ).loc main_arg3) : S32x11008.Idx → EReal)
          (sitofp (F := Ideal) .f32 (constantI S_ 32 0#32) : S_.Idx → EReal) pads_S32x11008_S32x11264_000_02560 h_S_ := by
  dsimp only [V, V0]
  simp only [hostOps0, hostOps0_1, hostOps0_2, hostOps0_3, hostOps0_4, hostOps0_5, hostOps0_6, hostOps0_7, hostOps0_8,
    List.flatten_cons, List.flatten_nil, List.append_nil, List.cons_append, List.nil_append]
  after_results
  rfl

/-- The bias as the region finds it: the argument padded with 256 entries on the right, then laid out as one row. -/
theorem V_v4_eq (c : Dev nD) :
    (V (F := Ideal) m c main_v4 : S1x11264.Idx → EReal)
      = shapeCast S1x11264 (pad S11264 ![0] ![256] ![0] (m ((c : Thread nD τ).loc main_arg4) : S11008.Idx → EReal)
          (sitofp (F := Ideal) .f32 (constantI S_ 32 0#32) : S_.Idx → EReal) pads_S11008_S11264_02560 h_S_)
          shapeCasts_S11264_S1x11264 := by
  dsimp only [V, V0]
  simp only [hostOps0, hostOps0_1, hostOps0_2, hostOps0_3, hostOps0_4, hostOps0_5, hostOps0_6, hostOps0_7, hostOps0_8,
    List.flatten_cons, List.flatten_nil, List.append_nil, List.cons_append, List.nil_append]
  after_results
  rfl

/-- What the host tail reads: the region's output array (window 5) as the region leaves it. -/
theorem tail_v5_eq (c : Dev nD) :
    (Pipeline.withArrays (cfgs 0).spec c (V0 m c) (fun w => (dats (F := Ideal) m 0 c).arrAt w (cfgs 0).N)
        (Proc.devRef .tc main_v5) : S16x11264.Idx → EReal)
      = ((dats (F := Ideal) m 0 c).arrAt 5 cfg0.N : S16x11264.Idx → EReal) :=
  Pipeline.withArrays_arr spec0 launch0.win.arr_inj c _ _ 5

/-! ## Read at an entry -/

/-- The padded packed words at a column of the argument are the argument's. -/
theorem V_v0_apply (c : Dev nD) (r : Fin 512) (q : Fin 11264) (hq : q.val < 11008) :
    (V (F := Ideal) m c main_v0 : S512x11264.Idx → BitVec 32) (ix2 r q)
      = (m ((c : Thread nD τ).loc main_arg1) : S512x11008.Idx → BitVec 32) (ix2 r (⟨q.val, hq⟩ : Fin 11008)) := by
  rw [V_v0_eq m c]
  -- no low padding and no interior padding: the entry (r, q) of the padded array is the entry (r, q) of the argument
  refine pad_apply_of_inside _ _ _ _ _ _ _ _ (ix2 r (⟨q.val, hq⟩ : Fin 11008)) (fun a => ?_)
  match a with
  | ⟨0, _⟩ => show r.val = 0 + r.val * (0 + 1); omega
  | ⟨1, _⟩ => show q.val = 0 + q.val * (0 + 1); omega

/-- The padded scales at a column of the argument are the argument's. -/
theorem V_v1_apply (c : Dev nD) (g : Fin 32) (q : Fin 11264) (hq : q.val < 11008) :
    (V (F := Ideal) m c main_v1 : S32x11264.Idx → EReal) (ix2 g q)
      = (m ((c : Thread nD τ).loc main_arg2) : S32x11008.Idx → EReal) (ix2 g (⟨q.val, hq⟩ : Fin 11008)) := by
  rw [V_v1_eq m c]
  -- no low padding and no interior padding: the entry (g, q) of the padded array is the entry (g, q) of the argument
  refine pad_apply_of_inside _ _ _ _ _ _ _ _ (ix2 g (⟨q.val, hq⟩ : Fin 11008)) (fun a => ?_)
  match a with
  | ⟨0, _⟩ => show g.val = 0 + g.val * (0 + 1); omega
  | ⟨1, _⟩ => show q.val = 0 + q.val * (0 + 1); omega

/-- The padded zero points at a column of the argument are the argument's. -/
theorem V_v2_apply (c : Dev nD) (g : Fin 32) (q : Fin 11264) (hq : q.val < 11008) :
    (V (F := Ideal) m c main_v2 : S32x11264.Idx → EReal) (ix2 g q)
      = (m ((c : Thread nD τ).loc main_arg3) : S32x11008.Idx → EReal) (ix2 g (⟨q.val, hq⟩ : Fin 11008)) := by
  rw [V_v2_eq m c]
  -- no low padding and no interior padding: the entry (g, q) of the padded array is the entry (g, q) of the argument
  refine pad_apply_of_inside _ _ _ _ _ _ _ _ (ix2 g (⟨q.val, hq⟩ : Fin 11008)) (fun a => ?_)
  match a with
  | ⟨0, _⟩ => show g.val = 0 + g.val * (0 + 1); omega
  | ⟨1, _⟩ => show q.val = 0 + q.val * (0 + 1); omega

/-- The padded bias, as one row, at a column of the argument is the argument's. -/
theorem V_v4_apply (c : Dev nD) (q : Fin 11264) (hq : q.val < 11008) :
    (V (F := Ideal) m c main_v4 : S1x11264.Idx → EReal) (ix2 (0 : Fin 1) q)
      = (m ((c : Thread nD τ).loc main_arg4) : S11008.Idx → EReal) (ix1 (⟨q.val, hq⟩ : Fin 11008)) := by
  rw [V_v4_eq m c]
  -- the one row's entry q is the vector's entry q; no low and no interior padding, so that is the argument's entry q
  refine (shapeCast_a_1a_apply _ _ (0 : Fin 1) q).trans ?_
  refine pad_apply_of_inside _ _ _ _ _ _ _ _ (ix1 (⟨q.val, hq⟩ : Fin 11008)) (fun a => ?_)
  match a with
  | ⟨0, _⟩ => show q.val = 0 + q.val * (0 + 1); omega

/-- The result buffer after the host tail: the region's output array cut to its first 11008 columns. -/
theorem tail_v6_apply (c : Dev nD) (p : Fin 16) (q : Fin 11008) :
    (Pipeline.afterTail₀ cfgs (dats (F := Ideal) m) 0 (V0 m) [hostOps1] c main_v6 : S16x11008.Idx → EReal) (ix2 p q)
      = ((dats (F := Ideal) m 0 c).arrAt 5 cfg0.N : S16x11264.Idx → EReal) (ix2 p (⟨q.val, by have := q.isLt; omega⟩ : Fin 11264)) := by
  unfold Pipeline.afterTail₀
  simp only [hostOps1, List.flatten_cons, List.flatten_nil, List.append_nil, List.cons_append, List.nil_append]
  after_results
  -- the cut of the region's array from column 0: its entry (p, q) is the array's entry (p, 0 + q)
  refine (congrArg (fun X : S16x11264.Idx → EReal =>
    extractStridedSlice S16x11008 ![0, 0] X slices_S16x11264_S16x11008_0_0 (ix2 p q)) (tail_v5_eq m c)).trans ?_
  exact slice2_axis1_apply 0 _ _ p q _ (Nat.zero_add _).symm

end Cert.KernelIdeal.Deq

end
-- ==== Proof.KernelArr.lean ====
/-
  From blocks to the array, and the kernel's run read.
  The grid has 22 points; at point t the output window's block is columns 512t .. 512t+511 of the 16 × 11264 array, the
  packed words', scales', zero points' and bias row's blocks are the same columns of their padded arrays, and x is
  staged whole. What point t writes back is therefore block t of ONE function of the region-entry arrays: entry (p, c)
  is the kernel's value of row p of x and column c of the padded arrays. The 22 blocks cover the array.
  After the region the host cuts the array back to its first 11008 columns, where the padded arrays are the arguments.
-/
import proofs.«427976_j11098195492906_2_alg».proof.Proof.BlockVal
import proofs.«427976_j11098195492906_2_alg».proof.Proof.HostSide

set_option maxRecDepth 16384

noncomputable section

namespace Cert.KernelIdeal.Deq

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Deq

variable (m : (ℓ : Loc nD τ sig) → Buf (Elt Ideal) ℓ) (ρ : Dev nD → PrngReg)

/-- The arrays as the region finds them, at their literal types. -/
abbrev a0 (c : Dev nD) : Vec Ideal S16x4096 .f32 := V (F := Ideal) m c main_arg0
abbrev a1 (c : Dev nD) : Vec Ideal S512x11264 .i32 := V (F := Ideal) m c main_v0
abbrev a2 (c : Dev nD) : Vec Ideal S32x11264 .f32 := V (F := Ideal) m c main_v1
abbrev a3 (c : Dev nD) : Vec Ideal S32x11264 .f32 := V (F := Ideal) m c main_v2
abbrev a4 (c : Dev nD) : Vec Ideal S1x11264 .f32 := V (F := Ideal) m c main_v4

/-- The input windows' blocks at point t, at their literal types. -/
abbrev b0 (c : Dev nD) (t : Fin cfg0.N) : Vec Ideal S16x4096 .f32 := iblk (F := Ideal) m c 0 t
abbrev b1 (c : Dev nD) (t : Fin cfg0.N) : Vec Ideal S512x512 .i32 := iblk (F := Ideal) m c 1 t
abbrev b2 (c : Dev nD) (t : Fin cfg0.N) : Vec Ideal S32x512 .f32 := iblk (F := Ideal) m c 2 t
abbrev b3 (c : Dev nD) (t : Fin cfg0.N) : Vec Ideal S32x512 .f32 := iblk (F := Ideal) m c 3 t
abbrev b4 (c : Dev nD) (t : Fin cfg0.N) : Vec Ideal S1x512 .f32 := iblk (F := Ideal) m c 4 t

/-- The printed index maps over the grid: x's block is always block (0, 0); every other window's is block (0, t). -/
theorem idx_facts : ∀ t : Fin cfg0.N,
    win0_0.index t (0 : Fin 2) = 0 ∧ win0_0.index t (1 : Fin 2) = 0
    ∧ win0_1.index t (0 : Fin 2) = 0 ∧ win0_1.index t (1 : Fin 2) = t.val
    ∧ win0_2.index t (0 : Fin 2) = 0 ∧ win0_2.index t (1 : Fin 2) = t.val
    ∧ win0_3.index t (0 : Fin 2) = 0 ∧ win0_3.index t (1 : Fin 2) = t.val
    ∧ win0_4.index t (0 : Fin 2) = 0 ∧ win0_4.index t (1 : Fin 2) = t.val
    ∧ win0_5.index t (0 : Fin 2) = 0 ∧ win0_5.index t (1 : Fin 2) = t.val :=
  (by decide +kernel : ∀ t : Fin grid0.N, _)

theorem t_lt (t : Fin cfg0.N) : t.val < 22 := lt_of_lt_of_eq t.isLt N_0

/-- A column of block t, as a column of the padded arrays. -/
def col (t : Fin cfg0.N) (q : Fin 512) : Fin 11264 := ⟨512 * t.val + q.val, by have := t_lt t; have := q.isLt; omega⟩

theorem b0_apply (c : Dev nD) (t : Fin cfg0.N) (p : Fin 16) (K : Fin 4096) : b0 m c t (ix2 p K) = a0 m c (ix2 p K) := by
  obtain ⟨e0, e1, -⟩ := idx_facts t
  show V (F := Ideal) m c main_arg0 (((cfg0.win 0).blk t).view.emb (ix2 p K)) = V (F := Ideal) m c main_arg0 (ix2 p K)
  refine congrArg _ (funext fun a => Fin.ext ?_)
  match a with
  | ⟨0, _⟩ => show win0_0.index t (0 : Fin 2) * 16 + 1 * p.val = p.val; omega
  | ⟨1, _⟩ => show win0_0.index t (1 : Fin 2) * 4096 + 1 * K.val = K.val; omega

theorem b1_apply (c : Dev nD) (t : Fin cfg0.N) (r : Fin 512) (q : Fin 512) : b1 m c t (ix2 r q) = a1 m c (ix2 r (col t q)) := by
  obtain ⟨-, -, e0, e1, -⟩ := idx_facts t
  show V (F := Ideal) m c main_v0 (((cfg0.win 1).blk t).view.emb (ix2 r q)) = V (F := Ideal) m c main_v0 (ix2 r (col t q))
  refine congrArg _ (funext fun a => Fin.ext ?_)
  match a with
  | ⟨0, _⟩ => show win0_1.index t (0 : Fin 2) * 512 + 1 * r.val = r.val; omega
  | ⟨1, _⟩ => show win0_1.index t (1 : Fin 2) * 512 + 1 * q.val = 512 * t.val + q.val; omega

theorem b2_apply (c : Dev nD) (t : Fin cfg0.N) (g : Fin 32) (q : Fin 512) : b2 m c t (ix2 g q) = a2 m c (ix2 g (col t q)) := by
  obtain ⟨-, -, -, -, e0, e1, -⟩ := idx_facts t
  show V (F := Ideal) m c main_v1 (((cfg0.win 2).blk t).view.emb (ix2 g q)) = V (F := Ideal) m c main_v1 (ix2 g (col t q))
  refine congrArg _ (funext fun a => Fin.ext ?_)
  match a with
  | ⟨0, _⟩ => show win0_2.index t (0 : Fin 2) * 32 + 1 * g.val = g.val; omega
  | ⟨1, _⟩ => show win0_2.index t (1 : Fin 2) * 512 + 1 * q.val = 512 * t.val + q.val; omega

theorem b3_apply (c : Dev nD) (t : Fin cfg0.N) (g : Fin 32) (q : Fin 512) : b3 m c t (ix2 g q) = a3 m c (ix2 g (col t q)) := by
  obtain ⟨-, -, -, -, -, -, e0, e1, -⟩ := idx_facts t
  show V (F := Ideal) m c main_v2 (((cfg0.win 3).blk t).view.emb (ix2 g q)) = V (F := Ideal) m c main_v2 (ix2 g (col t q))
  refine congrArg _ (funext fun a => Fin.ext ?_)
  match a with
  | ⟨0, _⟩ => show win0_3.index t (0 : Fin 2) * 32 + 1 * g.val = g.val; omega
  | ⟨1, _⟩ => show win0_3.index t (1 : Fin 2) * 512 + 1 * q.val = 512 * t.val + q.val; omega

theorem b4_apply (c : Dev nD) (t : Fin cfg0.N) (q : Fin 512) : b4 m c t (ix2 (0 : Fin 1) q) = a4 m c (ix2 (0 : Fin 1) (col t q)) := by
  obtain ⟨-, -, -, -, -, -, -, -, e0, e1, -⟩ := idx_facts t
  show V (F := Ideal) m c main_v4 (((cfg0.win 4).blk t).view.emb (ix2 (0 : Fin 1) q)) = V (F := Ideal) m c main_v4 (ix2 (0 : Fin 1) (col t q))
  refine congrArg _ (funext fun a => Fin.ext ?_)
  match a with
  | ⟨0, _⟩ => show win0_4.index t (0 : Fin 2) * 1 + 1 * 0 = 0; omega
  | ⟨1, _⟩ => show win0_4.index t (1 : Fin 2) * 512 + 1 * q.val = 512 * t.val + q.val; omega

/-- The region's output array as one function of the region-entry arrays: entry (p, c) is the kernel's value of row p
    of x and column c of the padded words, scales, zero points and bias row. -/
def KG (X : Vec Ideal S16x4096 .f32) (Wp : Vec Ideal S512x11264 .i32) (Sp Zp : Vec Ideal S32x11264 .f32) (Bp : Vec Ideal S1x11264 .f32) :
    Vec Ideal S16x11264 .f32 := fun i =>
  kval (fun K => X (ix2 (⟨(i 0).val, idx2_lt0 i⟩ : Fin 16) K)) (fun r => Wp (ix2 r (⟨(i 1).val, idx2_lt1 i⟩ : Fin 11264)))
    (fun g => Sp (ix2 g (⟨(i 1).val, idx2_lt1 i⟩ : Fin 11264))) (fun g => Zp (ix2 g (⟨(i 1).val, idx2_lt1 i⟩ : Fin 11264)))
    (Bp (ix2 (0 : Fin 1) (⟨(i 1).val, idx2_lt1 i⟩ : Fin 11264)))

/-- The stored block at a local index j: the array function at row j₀ and column 512t + j₁. -/
theorem blockVal_blk (c : Dev nD) (t : Fin cfg0.N) (j : S16x512.Idx) :
    blockVal (F := Ideal) (b0 m c t) (b1 m c t) (b2 m c t) (b3 m c t) (b4 m c t) j
      = KG (a0 m c) (a1 m c) (a2 m c) (a3 m c) (a4 m c) (ix2 (⟨(j 0).val, idx2_lt0 j⟩ : Fin 16) (col t ⟨(j 1).val, idx2_lt1 j⟩)) := by
  obtain ⟨p, q, rfl⟩ : ∃ (p : Fin 16) (q : Fin 512), j = ix2 p q := ⟨j 0, j 1, eq_ix2 j⟩
  rw [blockVal_apply]
  show kval (fun K => b0 m c t (ix2 p K)) (fun r => b1 m c t (ix2 r q)) (fun g => b2 m c t (ix2 g q)) (fun g => b3 m c t (ix2 g q)) (b4 m c t (ix2 (0 : Fin 1) q))
    = kval (fun K => a0 m c (ix2 p K)) (fun r => a1 m c (ix2 r (col t q))) (fun g => a2 m c (ix2 g (col t q))) (fun g => a3 m c (ix2 g (col t q)))
        (a4 m c (ix2 (0 : Fin 1) (col t q)))
  simp only [b0_apply, b1_apply, b2_apply, b3_apply, b4_apply]

/-- WHAT POINT t WRITES BACK is block t of that function. -/
theorem flushed_eq (c : Dev nD) (t : Fin cfg0.N) :
    (dats (F := Ideal) m 0 c).flushed 5 t
      = ((cfg0.win 5).blk t).view.read (Elt Ideal) (KG (a0 m c) (a1 m c) (a2 m c) (a3 m c) (a4 m c)) := by
  show (cfg0.win 5).cut (grid0.coords t) ((dats (F := Ideal) m 0 c).after 5 t) = _
  rw [after0_5, out0_5_eq, View.canon_unit_zero hz2]
  obtain ⟨-, -, -, -, -, -, -, -, -, -, e0, e1⟩ := idx_facts t
  funext j
  show blockVal (F := Ideal) (b0 m c t) (b1 m c t) (b2 m c t) (b3 m c t) (b4 m c t) j
    = KG (a0 m c) (a1 m c) (a2 m c) (a3 m c) (a4 m c) (((cfg0.win 5).blk t).view.emb j)
  refine (blockVal_blk m c t j).trans ?_
  refine congrArg _ (funext fun a => Fin.ext ?_)
  match a with
  | ⟨0, _⟩ => show (j 0).val = win0_5.index t (0 : Fin 2) * 16 + 1 * (j 0).val; omega
  | ⟨1, _⟩ => show 512 * t.val + (j 1).val = win0_5.index t (1 : Fin 2) * 512 + 1 * (j 1).val; omega

/-- An index of the array is in point t's block iff each coordinate is in the block's range on its axis. -/
theorem mem_blk (t : Fin cfg0.N) (i : S16x11264.Idx) :
    i ∈ ((cfg0.win 5).blk t).view.set ↔ ∀ a : Fin 2, win0_5.index t a * S16x512.size a ≤ (i a).val ∧ (i a).val < win0_5.index t a * S16x512.size a + S16x512.size a := by
  show i ∈ ((View.whole main_v5).slice (win0_5.rect t)).set ↔ _
  rw [View.set_slice_whole, Rect.mem_set_unit]
  exact Iff.rfl

/-- The 22 blocks cover the array: column c is in block c / 512. -/
theorem cover (i : S16x11264.Idx) : ∃ t : Fin cfg0.N, (cfg0.win 5).flush t = true ∧ i ∈ ((cfg0.win 5).blk t).view.set := by
  have hi0 : (i 0).val < 16 := (i 0).isLt
  have hi1 : (i 1).val < 11264 := (i 1).isLt
  have hN : cfg0.N = 22 := N_0
  refine ⟨⟨(i 1).val / 512, by rw [hN]; omega⟩, flush0_5 _, ?_⟩
  rw [mem_blk]
  obtain ⟨-, -, -, -, -, -, -, -, -, -, e0, e1⟩ := idx_facts ⟨(i 1).val / 512, by rw [hN]; omega⟩
  intro a
  match a with
  | ⟨0, _⟩ =>
    show win0_5.index _ (0 : Fin 2) * 16 ≤ (i 0).val ∧ (i 0).val < win0_5.index _ (0 : Fin 2) * 16 + 16
    rw [e0]; omega
  | ⟨1, _⟩ =>
    show win0_5.index _ (1 : Fin 2) * 512 ≤ (i 1).val ∧ (i 1).val < win0_5.index _ (1 : Fin 2) * 512 + 512
    rw [e1]; show (i 1).val / 512 * 512 ≤ (i 1).val ∧ (i 1).val < (i 1).val / 512 * 512 + 512; omega

/-- THE ARRAY after the region. -/
theorem final (c : Dev nD) : (dats (F := Ideal) m 0 c).arrAt 5 cfg0.N = KG (a0 m c) (a1 m c) (a2 m c) (a3 m c) (a4 m c) :=
  (dats (F := Ideal) m 0 c).arrAt_eq_of_cover 5 _ (fun t _ => flushed_eq m c t) cover

/-- The kernel's result as a function of the arguments: entry (p, q) is the kernel's value of row p of x and column q
    of the words, scales, zero points and bias. -/
def KV (x : Vec Ideal S16x4096 .f32) (W : Vec Ideal S512x11008 .i32) (s z : Vec Ideal S32x11008 .f32) (b : Vec Ideal S11008 .f32) :
    Vec Ideal S16x11008 .f32 := fun i =>
  kval (fun K => x (ix2 (⟨(i 0).val, idx2_lt0 i⟩ : Fin 16) K)) (fun r => W (ix2 r (⟨(i 1).val, idx2_lt1 i⟩ : Fin 11008)))
    (fun g => s (ix2 g (⟨(i 1).val, idx2_lt1 i⟩ : Fin 11008))) (fun g => z (ix2 g (⟨(i 1).val, idx2_lt1 i⟩ : Fin 11008)))
    (b (ix1 (⟨(i 1).val, idx2_lt1 i⟩ : Fin 11008)))

/-- The result buffer after the host tail is that function of the argument arrays as launched. -/
theorem result_eq (c : Dev nD) :
    (Pipeline.afterTail₀ cfgs (dats (F := Ideal) m) 0 (V0 m) [hostOps1] c main_v6 : S16x11008.Idx → EReal)
      = KV (m ((c : Thread nD τ).loc main_arg0)) (m ((c : Thread nD τ).loc main_arg1)) (m ((c : Thread nD τ).loc main_arg2))
          (m ((c : Thread nD τ).loc main_arg3)) (m ((c : Thread nD τ).loc main_arg4)) := by
  funext i
  obtain ⟨p, q, rfl⟩ : ∃ (p : Fin 16) (q : Fin 11008), i = ix2 p q := ⟨i 0, i 1, eq_ix2 i⟩
  rw [tail_v6_apply, final]
  have hq : q.val < 11264 := by have := q.isLt; omega
  show kval (fun K => a0 m c (ix2 p K)) (fun r => a1 m c (ix2 r (⟨q.val, hq⟩ : Fin 11264))) (fun g => a2 m c (ix2 g (⟨q.val, hq⟩ : Fin 11264)))
      (fun g => a3 m c (ix2 g (⟨q.val, hq⟩ : Fin 11264))) (a4 m c (ix2 (0 : Fin 1) (⟨q.val, hq⟩ : Fin 11264)))
    = kval (fun K => m ((c : Thread nD τ).loc main_arg0) (ix2 p K)) (fun r => m ((c : Thread nD τ).loc main_arg1) (ix2 r q))
      (fun g => m ((c : Thread nD τ).loc main_arg2) (ix2 g q)) (fun g => m ((c : Thread nD τ).loc main_arg3) (ix2 g q))
      (m ((c : Thread nD τ).loc main_arg4) (ix1 q))
  have h0 : a0 m c = m ((c : Thread nD τ).loc main_arg0) := V_main_arg0 m c
  rw [h0]
  congr 1
  · funext r; exact V_v0_apply m c r ⟨q.val, hq⟩ q.isLt
  · funext g; exact V_v1_apply m c g ⟨q.val, hq⟩ q.isLt
  · funext g; exact V_v2_apply m c g ⟨q.val, hq⟩ q.isLt
  · exact V_v4_apply m c ⟨q.val, hq⟩ q.isLt

/-- The kernel's run, read: every weakly fair execution terminates with the result buffer at that function of the
    arguments and the arguments unchanged. -/
theorem run : θ_run defs (onTc (τ := τ) (main (F := Ideal))) ⟨m, fun _ => 0, ρ⟩ (fun r => ∀ c : Dev nD,
      r.2.mem ((c.tc : Thread nD τ).loc main_v6) = KV (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v6 (Pipeline.mem_restRefs_of main_v6 (by decide) (by decide))).trans (result_eq m c),
      ((h c).1 0).trans ((((dats (F := Ideal) m) 0 c).arrAt_in 0 rfl _).trans ((A_eq m c 0).trans (V_main_arg0 m c))),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c))⟩)
    (run_main m ρ)

end Cert.KernelIdeal.Deq

end
-- ==== Proof.RefSide.lean ====
/-
  The reference program read at an entry: entry (p, q) of its result is
      sum over K < 4096 of x[p,K] * ((nibble (K mod 8) of word (K / 8, q) - z[K / 128, q]) * s[K / 128, q])  +  bias[q].
  The unpacking broadcasts each word over eight shift amounts 0, 4, …, 28, shifts, masks with 15 and reshapes
  512 × 8 × 11008 to 4096 × 11008 (row K is nibble K mod 8 of word row K / 8); the scales and zero points are repeated
  128 times along the rows (row K is group K / 128); the matrix product is the plain sum over K.
-/
import proofs.«427976_j11098195492906_2_alg».proof.Proof.Gen.ReferenceIdeal.Run
import proofs.«427976_j11098195492906_2_alg».proof.Proof.Gen.ReferenceIdeal.Read
import proofs.«427976_j11098195492906_2_alg».proof.Proof.Spec
import Idealize.ShloMosaic.Lib.ValueIdx

noncomputable section

namespace Cert.ReferenceIdeal.Deq

open Cert.ReferenceIdeal Cert.ReferenceIdeal.Gen Cert.ReferenceIdeal.Read Idealize.ShloMosaic Idealize.ShloMosaic.TcCoe Idealize.ShloMosaic.ValueIdx Idealize.SL.Sem
open Cert.Deq

/-- The shift amount of nibble e is 4e, below the word size. -/
theorem shiftAmt_toNat (e : Fin 8) : (IntOp.muli (BitVec.ofNat 32 e.val) 4#32).toNat = 4 * e.val := by
  have he := e.isLt
  have h4 : (4#32 : BitVec 32).toNat = 4 := rfl
  show (BitVec.ofNat 32 e.val * 4#32).toNat = 4 * e.val
  rw [BitVec.toNat_mul, BitVec.toNat_ofNat, h4]
  omega

/-- Row K, column q of the unpacked words: nibble K mod 8 of word (K / 8, q), before the conversion to a float. -/
theorem words_apply (x1 : (⟨S512x11008, .i32⟩ : BufTy).Contents (Elt Ideal)) (K : Fin 4096) (q : Fin 11008) :
    val_main_v10 (F := Ideal) x1 (ix2 K q)
      = ((x1 (ix2 (⟨K.val / 8, by have := K.isLt; omega⟩ : Fin 512) q)).sshiftRight (4 * (K.val % 8))) &&& 15#32 := by
  have hK := K.isLt
  have hq := q.isLt
  have e10 : idx_main_v10 (ix2 K q)
      = ix3 (⟨K.val / 8, by omega⟩ : Fin 512) (⟨K.val % 8, Nat.mod_lt _ (by decide)⟩ : Fin 8) q :=
    funext fun a => Fin.ext (by
      match a with
      | ⟨0, _⟩ => show (K.val * 11008 + q.val) / 88064 = K.val / 8; omega
      | ⟨1, _⟩ => show (K.val * 11008 + q.val) / 11008 % 8 = K.val % 8; omega
      | ⟨2, _⟩ => show (K.val * 11008 + q.val) % 11008 = q.val; omega)
  rw [val_main_v10_apply, e10, val_main_v9_apply, val_main_v7_apply, val_main_v8_apply, val_main_c_0_apply,
    val_main_v5_apply, val_main_v3_apply, val_main_v6_apply, val_main_v4_apply, val_main_v2_apply,
    val_main_v0_apply, val_main_v1_apply, val_main_c_apply]
  have e3 : idx_main_v3 (idx_main_v5 (ix3 (⟨K.val / 8, by omega⟩ : Fin 512) (⟨K.val % 8, Nat.mod_lt _ (by decide)⟩ : Fin 8) q))
      = ix2 (⟨K.val / 8, by omega⟩ : Fin 512) q :=
    funext fun a => Fin.ext (by
      match a with
      | ⟨0, _⟩ => rfl
      | ⟨1, _⟩ => rfl)
  rw [e3]
  have hs := shiftAmt_toNat (⟨K.val % 8, Nat.mod_lt _ (by decide)⟩ : Fin 8)
  show IntOp.andi (IntOp.shrsi .host (x1 (ix2 (⟨K.val / 8, by omega⟩ : Fin 512) q))
      (IntOp.muli (BitVec.ofNat 32 (K.val % 8)) 4#32)) 15#32 = _
  unfold IntOp.shrsi IntOp.andi
  rw [if_pos (by rw [hs]; show 4 * (K.val % 8) < 32; omega)]
  show (BitVec.sshiftRight _ (IntOp.muli (BitVec.ofNat 32 (K.val % 8)) 4#32).toNat) &&& 15#32 = _
  rw [hs]

/-- Row K of the repeated scales is the scale of group K / 128. -/
theorem scales_apply (x2 : (⟨S32x11008, .f32⟩ : BufTy).Contents (Elt Ideal)) (K : Fin 4096) (q : Fin 11008) :
    val_main_v13 (F := Ideal) x2 (ix2 K q) = x2 (ix2 (⟨K.val / 128, by have := K.isLt; omega⟩ : Fin 32) q) := by
  have hK := K.isLt
  have hq := q.isLt
  rw [val_main_v13_apply, val_main_v12_apply]
  refine congrArg x2 (funext fun a => Fin.ext ?_)
  match a with
  | ⟨0, _⟩ => show (K.val * 11008 + q.val) / 1409024 = K.val / 128; omega
  | ⟨1, _⟩ => show (K.val * 11008 + q.val) % 11008 = q.val; omega

/-- Row K of the repeated zero points is the zero point of group K / 128. -/
theorem zeros_apply (x3 : (⟨S32x11008, .f32⟩ : BufTy).Contents (Elt Ideal)) (K : Fin 4096) (q : Fin 11008) :
    val_main_v15 (F := Ideal) x3 (ix2 K q) = x3 (ix2 (⟨K.val / 128, by have := K.isLt; omega⟩ : Fin 32) q) := by
  have hK := K.isLt
  have hq := q.isLt
  rw [val_main_v15_apply, val_main_v14_apply]
  refine congrArg x3 (funext fun a => Fin.ext ?_)
  match a with
  | ⟨0, _⟩ => show (K.val * 11008 + q.val) / 1409024 = K.val / 128; omega
  | ⟨1, _⟩ => show (K.val * 11008 + q.val) % 11008 = q.val; omega

/-- Row K, column q of the dequantized matrix: (nibble - zero point) * scale. -/
theorem deq_apply (x1 : (⟨S512x11008, .i32⟩ : BufTy).Contents (Elt Ideal)) (x2 x3 : (⟨S32x11008, .f32⟩ : BufTy).Contents (Elt Ideal))
    (K : Fin 4096) (q : Fin 11008) :
    val_main_v17 (F := Ideal) x1 x2 x3 (ix2 K q)
      = (nibE (x1 (ix2 (⟨K.val / 8, by have := K.isLt; omega⟩ : Fin 512) q)) ⟨K.val % 8, Nat.mod_lt _ (by decide)⟩
          - x3 (ix2 (⟨K.val / 128, by have := K.isLt; omega⟩ : Fin 32) q))
        * x2 (ix2 (⟨K.val / 128, by have := K.isLt; omega⟩ : Fin 32) q) := by
  rw [val_main_v17_apply, val_main_v16_apply, val_main_v11_apply, words_apply, scales_apply, zeros_apply]
  rfl

theorem ref_apply (x0 : (⟨S16x4096, .f32⟩ : BufTy).Contents (Elt Ideal)) (x1 : (⟨S512x11008, .i32⟩ : BufTy).Contents (Elt Ideal))
    (x2 x3 : (⟨S32x11008, .f32⟩ : BufTy).Contents (Elt Ideal)) (x4 : (⟨S11008, .f32⟩ : BufTy).Contents (Elt Ideal)) (p : Fin 16) (q : Fin 11008) :
    val_main_v21 (F := Ideal) x0 x1 x2 x3 x4 (ix2 p q)
      = rval (fun K => x0 (ix2 p K)) (fun r => x1 (ix2 r q)) (fun g => x2 (ix2 g q)) (fun g => x3 (ix2 g q)) (x4 (ix1 q)) := by
  rw [val_main_v21_apply, val_main_v18_apply, val_main_v20_apply, val_main_v19_apply]
  have hb : idx_main_v19 (idx_main_v20 (ix2 p q)) = ix1 q :=
    funext fun a => Fin.ext (by
      match a with
      | ⟨0, _⟩ => rfl)
  rw [hb]
  unfold rval
  show (∑ k : Fin 4096, x0 (lidx_main_v18 (ix2 p q) k) * val_main_v17 (F := Ideal) x1 x2 x3 (ridx_main_v18 (ix2 p q) k)) + x4 (ix1 q) = _
  refine congrArg (· + x4 (ix1 q)) (Finset.sum_congr rfl fun K _ => ?_)
  have hl : lidx_main_v18 (ix2 p q) K = ix2 p K :=
    funext fun a => Fin.ext (by
      match a with
      | ⟨0, _⟩ => rfl
      | ⟨1, _⟩ => rfl)
  have hr : ridx_main_v18 (ix2 p q) K = ix2 K q :=
    funext fun a => Fin.ext (by
      match a with
      | ⟨0, _⟩ => rfl
      | ⟨1, _⟩ => rfl)
  rw [hl, hr, deq_apply]

end Cert.ReferenceIdeal.Deq

end
-- ==== Proof.Finite.lean ====
/-
  The precondition read: it is the conjunction, over x, the scales, the zero points and the bias, of
  "every entry has absolute value below +infinity", so under it every entry of those four arrays is a real number.
-/
import proofs.«427976_j11098195492906_2_alg».proof.Pre_finite_inputs
import proofs.«427976_j11098195492906_2_alg».proof.Proof.Gen.Pre_finite_inputs
import Idealize.ShloMosaic.PureOps.Ideal
import Idealize.ShloMosaic.Lib.ReduceAll
import Idealize.ShloMosaic.Lib.ValueIdx

noncomputable section

namespace Cert.Deq.Finite

open Idealize.ShloMosaic Idealize.ShloMosaic.ValueIdx Cert.Pre_finite_inputs

/-- An extended real whose absolute value compares below the pattern of `+∞` is the coercion of a real:
    the pattern denotes `⊤`, and `max x (-x)` is `⊤` at both infinities. -/
theorem real_of_abs_lt_inf (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot => exact absurd h (by simp [Ideal.cmp])
  | coe r => exact ⟨r, rfl⟩
  | top => exact absurd h (by simp [Ideal.cmp])

theorem of_pre [Cert.Pre_finite_inputs.Facts] (x0 : FVec Ideal S16x4096 .f32) (x1 : IVec S512x11008 32) (x2 x3 : FVec Ideal S32x11008 .f32) (x4 : FVec Ideal S11008 .f32)
    (h : Cert.Pre_finite_inputs.fn (F := Ideal) x0 x1 x2 x3 x4 = (fun _ => 1#1)) :
    (∀ i, ∃ r : ℝ, x0 i = (r : EReal)) ∧ (∀ i, ∃ r : ℝ, x2 i = (r : EReal)) ∧ (∀ i, ∃ r : ℝ, x3 i = (r : EReal)) ∧ (∀ i, ∃ r : ℝ, x4 i = (r : EReal)) := by
  haveI : Subsingleton S_.Idx := ⟨fun a b => funext fun d => d.elim0⟩
  have h0 := congrFun h ValueIdx.ix0
  unfold Cert.Pre_finite_inputs.fn Cert.Pre_finite_inputs.fn_part1 at h0
  obtain ⟨h123, h4⟩ := IntOp.andi_eq_one.1 h0
  obtain ⟨h12, h3⟩ := IntOp.andi_eq_one.1 h123
  obtain ⟨h1, h2⟩ := IntOp.andi_eq_one.1 h12
  refine ⟨fun i => ?_, fun i => ?_, fun i => ?_, fun i => ?_⟩
  · exact real_of_abs_lt_inf (x0 i) (Host.reduce_andi_all _ _ _ _ _ h1 i)
  · exact real_of_abs_lt_inf (x2 i) (Host.reduce_andi_all _ _ _ _ _ h2 i)
  · exact real_of_abs_lt_inf (x3 i) (Host.reduce_andi_all _ _ _ _ _ h3 i)
  · exact real_of_abs_lt_inf (x4 i) (Host.reduce_andi_all _ _ _ _ _ h4 i)

end Cert.Deq.Finite

end
-- ==== Proof.lean ====
/-
  The certificate of the int4-dequantized matrix product: x (16 × 4096) against 4096 × 11008 weights stored as
  512 × 11008 packed words of eight nibbles, with a scale and a zero point per group of 128 rows, plus a bias.

  The reference dequantizes, W[K,q] = (nibble[K,q] - z[K/128,q]) * s[K/128,q], and computes x @ W + bias.
  The kernel never forms W: per group g it multiplies x's 128 columns into the raw nibbles and corrects,
      s_g * (sum_k x_k n_k) - (s_g * z_g) * (sum_k x_k)  =  sum_k x_k * ((n_k - z_g) * s_g),
  accumulating the 32 groups and adding the bias, on column tiles of 512 of the arrays padded to 11264 columns, and
  cuts the result back to 11008 columns. On the extended reals the identity is distributivity, which needs every
  factor finite: the precondition gives that of x, the scales, the zero points and the bias, and a nibble is an integer.

  The three frames are the generated ones (the reference's is its generated run with the result dropped); the
  idealization rewrote nothing, so preserves is trivial; algebraic puts the kernel's run read as one function of the
  arguments beside the reference's run read at an entry, and joins them by the identity above.
-/
import proofs.«427976_j11098195492906_2_alg».proof.Defs
import proofs.«427976_j11098195492906_2_alg».proof.Proof.Gen.Kernel
import proofs.«427976_j11098195492906_2_alg».proof.Proof.Gen.Kernel.Skeleton
import proofs.«427976_j11098195492906_2_alg».proof.Proof.Gen.Kernel.Launch
import proofs.«427976_j11098195492906_2_alg».proof.Proof.Gen.Kernel.Points
import proofs.«427976_j11098195492906_2_alg».proof.Proof.Gen.Kernel.Frame
import proofs.«427976_j11098195492906_2_alg».proof.Proof.Gen.KernelIdeal
import proofs.«427976_j11098195492906_2_alg».proof.Proof.Gen.KernelIdeal.Skeleton
import proofs.«427976_j11098195492906_2_alg».proof.Proof.Gen.KernelIdeal.Launch
import proofs.«427976_j11098195492906_2_alg».proof.Proof.Gen.KernelIdeal.Points
import proofs.«427976_j11098195492906_2_alg».proof.Proof.Gen.KernelIdeal.Frame
import proofs.«427976_j11098195492906_2_alg».proof.Proof.Gen.ReferenceIdeal
import proofs.«427976_j11098195492906_2_alg».proof.Proof.Gen.ReferenceIdeal.Run
import proofs.«427976_j11098195492906_2_alg».proof.Proof.Gen.ReferenceIdeal.Read
import proofs.«427976_j11098195492906_2_alg».proof.Proof.Gen.Pre_finite_inputs
import proofs.«427976_j11098195492906_2_alg».proof.Proof.Spec
import proofs.«427976_j11098195492906_2_alg».proof.Proof.KernelArr
import proofs.«427976_j11098195492906_2_alg».proof.Proof.RefSide
import proofs.«427976_j11098195492906_2_alg».proof.Proof.Finite
import Idealize.ShloMosaic.Adequacy
import Idealize.ShloMosaic.Init

noncomputable section

namespace Cert.Proof

open Idealize.ShloMosaic Idealize.ShloMosaic.ValueIdx Idealize.SL.Sem Cert.Deq

/-- With every float input a real number, the reference's result (its last stage, as a function of the arguments)
    is the kernel's result function: entry by entry the reference's sum over all 4096 reduction indices is the
    kernel's accumulation over the 32 groups. -/
theorem bridge (x0 : Vec Ideal Cert.KernelIdeal.S16x4096 .f32) (x1 : Vec Ideal Cert.KernelIdeal.S512x11008 .i32)
    (x2 x3 : Vec Ideal Cert.KernelIdeal.S32x11008 .f32) (x4 : Vec Ideal Cert.KernelIdeal.S11008 .f32)
    (h0 : ∀ i, ∃ r : ℝ, x0 i = (r : EReal)) (h2 : ∀ i, ∃ r : ℝ, x2 i = (r : EReal)) (h3 : ∀ i, ∃ r : ℝ, x3 i = (r : EReal))
    (h4 : ∀ i, ∃ r : ℝ, x4 i = (r : EReal)) :
    Cert.ReferenceIdeal.Read.val_main_v21 (F := Ideal) x0 x1 x2 x3 x4 = Cert.KernelIdeal.Deq.KV x0 x1 x2 x3 x4 := by
  funext i
  obtain ⟨p, q, rfl⟩ : ∃ (p : Fin 16) (q : Fin 11008), i = ix2 p q := ⟨i 0, i 1, eq_ix2 i⟩
  rw [Cert.ReferenceIdeal.Deq.ref_apply]
  show rval (fun K => x0 (ix2 p K)) (fun r => x1 (ix2 r q)) (fun g => x2 (ix2 g q)) (fun g => x3 (ix2 g q)) (x4 (ix1 q))
    = kval (fun K => x0 (ix2 p K)) (fun r => x1 (ix2 r q)) (fun g => x2 (ix2 g q)) (fun g => x3 (ix2 g q)) (x4 (ix1 q))
  exact (kval_eq_rval _ _ _ _ _ (fun K => h0 _) (fun g => h2 _) (fun g => h3 _) (h4 _)).symm

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the arguments both programs end with the same result: the kernel's result function
    of the arguments, which under the precondition is the reference's. -/
theorem algebraic : Cert.algebraic_KernelIdeal_ReferenceIdeal := by
  intro m ρ m' ρ' hpre hagree
  refine ⟨_, Cert.KernelIdeal.Deq.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v21_eq, (hagree c).1, (hagree c).2.1, (hagree c).2.2.1, (hagree c).2.2.2.1, (hagree c).2.2.2.2]
  obtain ⟨h0, h2, h3, h4⟩ := Cert.Deq.Finite.of_pre _ _ _ _ _ (hpre c)
  exact bridge _ _ _ _ _ h0 h2 h3 h4

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
